-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S800000x6 : Shape := ⟨2, ![800000, 6]⟩
abbrev S263x128 : Shape := ⟨2, ![263, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x6 : S_.BroadcastsInDim S800000x6 (![] : Fin 0 → Fin S800000x6.rank)
  reducesTo_S800000x6_S_d0_1 : S800000x6.ReducesTo [0, 1] S_
  bcast_S_S263x128 : S_.BroadcastsInDim S263x128 (![] : Fin 0 → Fin S263x128.rank)
  reducesTo_S263x128_S_d0_1 : S263x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S128 .f32) (main_arg13 : FVec F S128x1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg13
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_v63 main_v67

def fn_part2 {F : FTy → Type} [FloatOps F] (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S263x128 1) : IVec S_ 1 :=
  let main_c_5 : IVec S_ 1 := constantI S_ 1 1#1
  let main_v17 : IVec S_ 1 := (fun x v => Host.reduce IntOp.andi x v reducesTo_S263x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S50000x3 .f32) (main_arg2 : FVec F S800000x6 .f32) (main_arg3 : FVec F S263x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x6 .f32 := Host.absf main_arg2
  let main_cst_2 : FVec F S_ .f32 := constant S_ .f32 0x7F800000#32
  let main_v10 : FVec F S800000x6 .f32 := broadcastInDim S800000x6 ![] bcast_S_S800000x6 main_cst_2
  let main_v11 : IVec S800000x6 1 := cmpf .olt main_v9 main_v10
  let main_c_3 : IVec S_ 1 := constantI S_ 1 1#1
  let main_v12 : IVec S_ 1 := (fun x v => Host.reduce IntOp.andi x v reducesTo_S800000x6_S_d0_1 h_S_) main_v11 main_c_3
  let main_v13 : IVec S_ 1 := andi main_v8 main_v12
  let main_v14 : FVec F S263x128 .f32 := Host.absf main_arg3
  let main_cst_4 : FVec F S_ .f32 := constant S_ .f32 0x7F800000#32
  let main_v15 : FVec F S263x128 .f32 := broadcastInDim S263x128 ![] bcast_S_S263x128 main_cst_4
  let main_v16 : IVec S263x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S800000x6 : Shape := ⟨2, ![800000, 6]⟩
abbrev S263x128 : Shape := ⟨2, ![263, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S6x128 : Shape := ⟨2, ![6, 128]⟩
abbrev S1x128 : Shape := ⟨2, ![1, 128]⟩
abbrev S1600x128 : Shape := ⟨2, ![1600, 128]⟩
abbrev S1600x6 : Shape := ⟨2, ![1600, 6]⟩
abbrev S1600x3 : Shape := ⟨2, ![1600, 3]⟩
abbrev S1600 : Shape := ⟨1, ![1600]⟩
abbrev S1600x1 : Shape := ⟨2, ![1600, 1]⟩
abbrev S1000x128 : Shape := ⟨2, ![1000, 128]⟩

abbrev nBuf : Space → Nat
  | .hbm => 80
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S800000x6, .f32⟩
  | .hbm, ⟨3, _⟩ => ⟨S263x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S2x800000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x3, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x3, .f32⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S6x128, .f32⟩
  | .hbm, ⟨61, _⟩ => ⟨S6x128, .bf16⟩
  | .hbm, ⟨62, _⟩ => ⟨S1x128, .f32⟩
  | .hbm, ⟨63, _⟩ => ⟨S128x128, .bf16⟩
  | .hbm, ⟨64, _⟩ => ⟨S128x128, .bf16⟩
  | .hbm, ⟨65, _⟩ => ⟨S128x1, .bf16⟩
  | .hbm, ⟨66, _⟩ => ⟨S800000x128, .f32⟩
  | .hbm, ⟨67, _⟩ => ⟨S800000x3, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S50000x3, .f32⟩
  | .hbm, ⟨74, _⟩ => ⟨S800000x1, .i32⟩
  | .hbm, ⟨75, _⟩ => ⟨S50000x3, .f32⟩
  | .hbm, ⟨76, _⟩ => ⟨S50000x3, .f32⟩
  | .hbm, ⟨77, _⟩ => ⟨S128x128, .f32⟩
  | .hbm, ⟨78, _⟩ => ⟨S128x128, .f32⟩
  | .hbm, ⟨79, _⟩ => ⟨S50000x128, .f32⟩
  | .local _ .vmem, ⟨0, _⟩ => ⟨S1600x128, .bf16⟩
  | .local _ .vmem, ⟨1, _⟩ => ⟨S1600x128, .bf16⟩
  | .local _ .vmem, ⟨2, _⟩ => ⟨S1600x128, .bf16⟩
  | .local _ .vmem, ⟨3, _⟩ => ⟨S1600x128, .bf16⟩
  | .local _ .vmem, ⟨4, _⟩ => ⟨S1600x6, .f32⟩
  | .local _ .vmem, ⟨5, _⟩ => ⟨S1600x6, .f32⟩
  | .local _ .vmem, ⟨6, _⟩ => ⟨S1600x3, .f32⟩
  | .local _ .vmem, ⟨7, _⟩ => ⟨S1600x3, .f32⟩
  | .local _ .vmem, ⟨8, _⟩ => ⟨S1600x3, .f32⟩
  | .local _ .vmem, ⟨9, _⟩ => ⟨S1600x3, .f32⟩
  | .local _ .vmem, ⟨10, _⟩ => ⟨S128x128, .bf16⟩
  | .local _ .vmem, ⟨11, _⟩ => ⟨S128x128, .bf16⟩
  | .local _ .vmem, ⟨12, _⟩ => ⟨S6x128, .bf16⟩
  | .local _ .vmem, ⟨13, _⟩ => ⟨S1x128, .f32⟩
  | .local _ .vmem, ⟨14, _⟩ => ⟨S128, .f32⟩
  | .local _ .vmem, ⟨15, _⟩ => ⟨S128x128, .bf16⟩
  | .local _ .vmem, ⟨16, _⟩ => ⟨S128, .f32⟩
  | .local _ .vmem, ⟨17, _⟩ => ⟨S128x128, .bf16⟩
  | .local _ .vmem, ⟨18, _⟩ => ⟨S128, .f32⟩
  | .local _ .vmem, ⟨19, _⟩ => ⟨S128x1, .bf16⟩
  | .local _ .vmem, ⟨20, _⟩ => ⟨S1600x128, .f32⟩
  | .local _ .vmem, ⟨21, _⟩ => ⟨S1600x128, .f32⟩
  | .local _ .vmem, ⟨22, _⟩ => ⟨S1600x3, .f32⟩
  | .local _ .vmem, ⟨23, _⟩ => ⟨S1600x3, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S128, .f32⟩
  | .local _ .vmem, ⟨33, _⟩ => ⟨S1000x128, .f32⟩
  | .local _ .vmem, ⟨34, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_cst : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem7_1 : DmaSem sig := 34

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1600x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1600x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1600x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S263x128_S128x128_0_0 : S263x128.Slices ![0, 0] S128x128
  slices_S263x128_S128x128_128_0 : S263x128.Slices ![128, 0] S128x128
  slices_S263x128_S6x128_256_0 : S263x128.Slices ![256, 0] S6x128
  slices_S263x128_S1x128_262_0 : S263x128.Slices ![262, 0] S1x128
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S1600x6_S1600x6_0_0 : ∀ a, (![0, 0] : Fin 2 → Nat) a + S1600x6.size a ≤ S1600x6.size a
  h_S1600x6 : 0 < S1600x6.numel
  inb_S1600x3_S1600x3_0_0 : ∀ a, (![0, 0] : Fin 2 → Nat) a + S1600x3.size a ≤ S1600x3.size a
  h_S1600x3 : 0 < S1600x3.numel
  shapeCasts_S1600x3_S1600x3 : S1600x3.ShapeCasts S1600x3
  reduces_S1600x3_S1600 : S1600x3.Reduces [1] S1600
  shapeCasts_S1600_S1600x1 : S1600.ShapeCasts S1600x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128_S128_0 : ∀ a, (![0] : Fin 1 → Nat) a + S128.size a ≤ S128.size a
  h_S128 : 0 < S128.numel
  broadcasts_S1600x1_S1600x128 : S1600x1.Broadcasts S1600x128
  broadcasts_S1x128_S1600x128 : S1x128.Broadcasts S1600x128
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1600x1_S1600x3 : S1600x1.Broadcasts S1600x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S1600x128_S128x128_S1600x128_1_0_0_1_n_n_wf : DotDims.WF S1600x128 S128x128 S1600x128 [1] [0] [0] [1] [] []
  dot_S1600x6_S6x128_S1600x128_1_0_0_1_n_n_wf : DotDims.WF S1600x6 S6x128 S1600x128 [1] [0] [0] [1] [] []
  dot_S1600x128_S128x1_S1600x1_1_0_0_1_n_n_wf : DotDims.WF S1600x128 S128x1 S1600x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S800000x128.size a
  hwx0_0 : ∀ i : grid0.Coords, EltTy.bits .bf16 = 32 ∨ (Rect.block (s := S800000x128) S1600x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S800000x128.size a
  hwx0_1 : ∀ i : grid0.Coords, EltTy.bits .bf16 = 32 ∨ (Rect.block (s := S800000x128) S1600x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x6.size a ≤ S800000x6.size a
  hwx0_2 : ∀ i : grid0.Coords, EltTy.bits .f32 = 32 ∨ (Rect.block (s := S800000x6) S1600x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x3.size a ≤ S800000x3.size a
  hwx0_3 : ∀ i : grid0.Coords, EltTy.bits .f32 = 32 ∨ (Rect.block (s := S800000x3) S1600x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1600x3.size a ≤ S800000x3.size a
  hwx0_4 : ∀ i : grid0.Coords, EltTy.bits .f32 = 32 ∨ (Rect.block (s := S800000x3) S1600x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x128.size a ≤ S6x128.size a
  hwx0_7 : ∀ i : grid0.Coords, EltTy.bits .bf16 = 32 ∨ (Rect.block (s := S6x128) S6x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .bf16 = 32 ∨ (Rect.block (s := S128x1) S128x1.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1600x128.size a ≤ S800000x128.size a
  hwx0_15 : ∀ i : grid0.Coords, EltTy.bits .f32 = 32 ∨ (Rect.block (s := S800000x128) S1600x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1600x3.size a ≤ S800000x3.size a
  hwx0_16 : ∀ i : grid0.Coords, EltTy.bits .f32 = 32 ∨ (Rect.block (s := S800000x3) S1600x3.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x6_S6x128_S1600x128_1_0_0_1_n_n : DotDims S1600x6 S6x128 S1600x128 where
  lhsContracting := [1]
  rhsContracting := [0]
  lhsNonContracting := [0]
  rhsNonContracting := [1]
  lhsBatch := []
  rhsBatch := []
  wf := dot_S1600x6_S6x128_S1600x128_1_0_0_1_n_n_wf
def dot_S1600x128_S128x1_S1600x1_1_0_0_1_n_n : DotDims S1600x128 S128x1 S1600x1 where
  lhsContracting := [1]
  rhsContracting := [0]
  lhsNonContracting := [0]
  rhsNonContracting := [1]
  lhsBatch := []
  rhsBatch := []
  wf := dot_S1600x128_S128x1_S1600x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v11) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1600x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1600x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1600x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S6x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v41) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v42) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v43_0) S1600x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v43_1) S1600x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S800000x6 : Shape := ⟨2, ![800000, 6]⟩
abbrev S263x128 : Shape := ⟨2, ![263, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x263 : Shape := ⟨2, ![800000, 263]⟩
abbrev S1x128 : Shape := ⟨2, ![1, 128]⟩
abbrev S50000x256 : Shape := ⟨2, ![50000, 256]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S50000x3, .f32⟩
  | 2 => ⟨S800000x6, .f32⟩
  | 3 => ⟨S263x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S2x800000, .i32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x263, .f32⟩
  | 62 => ⟨S800000x128, .f32⟩
  | 63 => ⟨S1x128, .f32⟩
  | 64 => ⟨S800000x128, .f32⟩
  | 65 => ⟨S800000x128, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S800000x128, .f32⟩
  | 75 => ⟨S800000x128, .f32⟩
  | 76 => ⟨S1x128, .f32⟩
  | 77 => ⟨S800000x128, .f32⟩
  | 78 => ⟨S800000x128, .f32⟩
  | 79 => ⟨S800000x128, .f32⟩
  | 80 => ⟨S800000x128, .f32⟩
  | 81 => ⟨S_, .f32⟩
  | 82 => ⟨S800000x128, .f32⟩
  | 83 => ⟨S800000x128, .f32⟩
  | 84 => ⟨S_, .f32⟩
  | 85 => ⟨S800000x128, .f32⟩
  | 86 => ⟨S800000x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x256, .f32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S50000x128, .f32⟩
  | 111 => ⟨S800000x128, .f32⟩
  | 112 => ⟨S1x128, .f32⟩
  | 113 => ⟨S800000x128, .f32⟩
  | 114 => ⟨S800000x128, .f32⟩
  | 115 => ⟨S800000x128, .f32⟩
  | 116 => ⟨S800000x128, .f32⟩
  | 117 => ⟨S_, .f32⟩
  | 118 => ⟨S800000x128, .f32⟩
  | 119 => ⟨S800000x128, .f32⟩
  | 120 => ⟨S_, .f32⟩
  | 121 => ⟨S800000x128, .f32⟩
  | 122 => ⟨S800000x128, .f32⟩
  | 123 => ⟨S800000x128, .f32⟩
  | 124 => ⟨S800000x1, .f32⟩
  | 125 => ⟨S800000x3, .f32⟩
  | 126 => ⟨S800000x3, .f32⟩
  | 127 => ⟨S_, .f32⟩
  | _ => ⟨S50000x128, .f32⟩

abbrev hbmTy0_1 (i : Nat) : BufTy := match i % 128 with
  | 0 => ⟨S800000x1, .f32⟩
  | 1 => ⟨S800000x1, .f32⟩
  | 2 => ⟨S800000x3, .f32⟩
  | 3 => ⟨S800000x3, .f32⟩
  | 4 => ⟨S_, .f32⟩
  | 5 => ⟨S50000x3, .f32⟩
  | 6 => ⟨S800000x1, .i32⟩
  | 7 => ⟨S50000x3, .f32⟩
  | 8 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v44 : Ref sig .tc := ⟨.hbm, 87, rfl⟩
abbrev main_cst : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call4_v0 : Ref sig .tc := ⟨.hbm, 115, rfl⟩
abbrev main_call4_v1 : Ref sig .tc := ⟨.hbm, 116, rfl⟩
abbrev main_call4_cst : Ref sig .tc := ⟨.hbm, 117, rfl⟩
abbrev main_call4_v2 : Ref sig .tc := ⟨.hbm, 118, rfl⟩
abbrev main_call4_v3 : Ref sig .tc := ⟨.hbm, 119, rfl⟩
abbrev main_call4_cst_0 : Ref sig .tc := ⟨.hbm, 120, rfl⟩
abbrev main_call4_v4 : Ref sig .tc := ⟨.hbm, 121, rfl⟩
abbrev main_call4_v5 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_7 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_cst_8 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x6_S800000x1_S800000x263_d1 : Shape.Concatenates [S800000x128, S800000x128, S800000x6, S800000x1] S800000x263 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S800000x1_S800000x3_0_1 : S800000x1.BroadcastsInDim S800000x3 (![0, 1] : Fin 2 → Fin S800000x3.rank)
  bcast_S_S800000x1 : S_.BroadcastsInDim S800000x1 (![] : Fin 0 → Fin S800000x1.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x263_S263x128_S800000x128_1_0_0_1_n_n_wf : DotDims.WF S800000x263 S263x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x263_S263x128_S800000x128_1_0_0_1_n_n : DotDims S800000x263 S263x128 S800000x128 where
  lhsContracting := [1]
  rhsContracting := [0]
  lhsNonContracting := [0]
  rhsNonContracting := [1]
  lhsBatch := []
  rhsBatch := []
  wf := dot_S800000x263_S263x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.HostTerms.lean ====
/-
  The integer side of the kernel's host program as functions: the two rows of the 2 × 800000 edge index array as
  vectors, and an index vector laid out as the column of start indices a gather or a scatter takes, either with a
  negative index first wrapped by the row count 50000 (the gathers) or as it is (the scatter-adds).
-/
import proofs.«153590_j30829275251278_1_alg».proof.Proof.Gen.KernelIdeal

noncomputable section

namespace Cert.KernelIdeal.HostTerms

open Idealize.ShloMosaic Cert.KernelIdeal Cert.KernelIdeal.Gen

/-- Row 0 of the index array (the source end of every edge). -/
def idxRow0 (x : IVec S2x800000 32) : IVec S800000 32 :=
  shapeCast S800000 (extractStridedSlice S1x800000 ![0, 0] x slices_S2x800000_S1x800000_0_0) shapeCasts_S1x800000_S800000
/-- Row 1 of the index array (the target end of every edge). -/
def idxRow1 (x : IVec S2x800000 32) : IVec S800000 32 :=
  shapeCast S800000 (extractStridedSlice S1x800000 ![1, 0] x slices_S2x800000_S1x800000_1_0) shapeCasts_S1x800000_S800000
/-- An index vector as a column of start indices, a negative index first wrapped by the row count 50000. -/
def wrapCol (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)
/-- An index vector as a column of start indices, as it is. -/
def rawCol (r : IVec S800000 32) : IVec S800000x1 32 := broadcastInDim S800000x1 ![0] bcast_S800000_S800000x1_0 r

end Cert.KernelIdeal.HostTerms

end
-- ==== Proof.HostValues.lean ====
/-
  What the host operations of the kernel's program leave in the buffers each region is entered at, as terms of the
  launch memory.  Before the edge region: the two index rows of edge_index, a negative index wrapped by the row
  count, the four gathers, the four row bands of the first weight matrix, and format changes (the identity on the
  extended reals, kept as written).  Between the regions: the two scatter-adds of the edge region's outputs into zero
  arrays at the raw column indices, the new positions, and the two halves of the first node matrix.  No host
  operation writes an argument.
-/
import proofs.«153590_j30829275251278_1_alg».proof.Proof.Patched.KernelIdeal.Frame
import proofs.«153590_j30829275251278_1_alg».proof.Proof.HostTerms
import Idealize.ShloMosaic.Lib.StableHlo.Run
import Idealize.ShloMosaic.PureOps.Ideal

set_option maxRecDepth 16384

noncomputable section

namespace Cert.KernelIdeal.HostValues

open Idealize.ShloMosaic Idealize.ShloMosaic.TcCoe Idealize.ShloMosaic.StableHlo Idealize.SL.Sem
open Cert.KernelIdeal Cert.KernelIdeal.Gen Cert.KernelIdeal.GenP Cert.KernelIdeal.HostTerms

variable (m : (ℓ : Loc nD τ sig) → Buf (Elt Ideal) ℓ) (ρ : Dev nD → PrngReg)

/-- Argument 0 of @main as launched, on core `c`. -/
abbrev a0 (c : Dev nD) : FVec Ideal S50000x128 .f32 := m ((c.tc : Thread nD τ).loc main_arg0)
/-- Argument 1 of @main as launched, on core `c`. -/
abbrev a1 (c : Dev nD) : FVec Ideal S50000x3 .f32 := m ((c.tc : Thread nD τ).loc main_arg1)
/-- Argument 2 of @main as launched, on core `c`. -/
abbrev a2 (c : Dev nD) : FVec Ideal S800000x6 .f32 := m ((c.tc : Thread nD τ).loc main_arg2)
/-- Argument 3 of @main as launched, on core `c`. -/
abbrev a3 (c : Dev nD) : FVec Ideal S263x128 .f32 := m ((c.tc : Thread nD τ).loc main_arg3)
/-- Argument 4 of @main as launched, on core `c`. -/
abbrev a4 (c : Dev nD) : FVec Ideal S128 .f32 := m ((c.tc : Thread nD τ).loc main_arg4)
/-- Argument 5 of @main as launched, on core `c`. -/
abbrev a5 (c : Dev nD) : FVec Ideal S128x128 .f32 := m ((c.tc : Thread nD τ).loc main_arg5)
/-- Argument 6 of @main as launched, on core `c`. -/
abbrev a6 (c : Dev nD) : FVec Ideal S128 .f32 := m ((c.tc : Thread nD τ).loc main_arg6)
/-- Argument 7 of @main as launched, on core `c`. -/
abbrev a7 (c : Dev nD) : FVec Ideal S256x128 .f32 := m ((c.tc : Thread nD τ).loc main_arg7)
/-- Argument 8 of @main as launched, on core `c`. -/
abbrev a8 (c : Dev nD) : FVec Ideal S128 .f32 := m ((c.tc : Thread nD τ).loc main_arg8)
/-- Argument 9 of @main as launched, on core `c`. -/
abbrev a9 (c : Dev nD) : FVec Ideal S128x128 .f32 := m ((c.tc : Thread nD τ).loc main_arg9)
/-- Argument 10 of @main as launched, on core `c`. -/
abbrev a10 (c : Dev nD) : FVec Ideal S128 .f32 := m ((c.tc : Thread nD τ).loc main_arg10)
/-- Argument 11 of @main as launched, on core `c`. -/
abbrev a11 (c : Dev nD) : FVec Ideal S128x128 .f32 := m ((c.tc : Thread nD τ).loc main_arg11)
/-- Argument 12 of @main as launched, on core `c`. -/
abbrev a12 (c : Dev nD) : FVec Ideal S128 .f32 := m ((c.tc : Thread nD τ).loc main_arg12)
/-- Argument 13 of @main as launched, on core `c`. -/
abbrev a13 (c : Dev nD) : FVec Ideal S128x1 .f32 := m ((c.tc : Thread nD τ).loc main_arg13)
/-- Argument 14 of @main as launched, on core `c`. -/
abbrev a14 (c : Dev nD) : IVec S2x800000 32 := m ((c.tc : Thread nD τ).loc main_arg14)

/-! ## The edge region's entry contents -/

theorem V1_v11 (c : Dev nD) : (V1 m ρ c main_v11 : FVec Ideal S800000x128 .bf16)
    = Host.gather gather_S50000x128_S800000x1_S800000x128_1_0_n_n_0_1_1128 (truncf .bf16 (a0 m c) bitsLt_bf16_f32) (wrapCol (idxRow0 (a14 m c))) := by
  dsimp only [V1, W1, hostOps0]
  after_results_simp <;> rfl
theorem V1_v18 (c : Dev nD) : (V1 m ρ c main_v18 : FVec Ideal S800000x128 .bf16)
    = Host.gather gather_S50000x128_S800000x1_S800000x128_1_0_n_n_0_1_1128 (truncf .bf16 (a0 m c) bitsLt_bf16_f32) (wrapCol (idxRow1 (a14 m c))) := by
  dsimp only [V1, W1, hostOps0]
  after_results_simp <;> rfl
theorem V1_arg2 (c : Dev nD) : (V1 m ρ c main_arg2 : FVec Ideal S800000x6 .f32) = a2 m c := by
  dsimp only [V1, W1, hostOps0]
  after_results_simp <;> rfl
theorem V1_v25 (c : Dev nD) : (V1 m ρ c main_v25 : FVec Ideal S800000x3 .f32)
    = Host.gather gather_S50000x3_S800000x1_S800000x3_1_0_n_n_0_1_13 (a1 m c) (wrapCol (idxRow0 (a14 m c))) := by
  dsimp only [V1, W1, hostOps0]
  after_results_simp <;> rfl
theorem V1_v32 (c : Dev nD) : (V1 m ρ c main_v32 : FVec Ideal S800000x3 .f32)
    = Host.gather gather_S50000x3_S800000x1_S800000x3_1_0_n_n_0_1_13 (a1 m c) (wrapCol (idxRow1 (a14 m c))) := by
  dsimp only [V1, W1, hostOps0]
  after_results_simp <;> rfl
theorem V1_v34 (c : Dev nD) : (V1 m ρ c main_v34 : FVec Ideal S128x128 .bf16)
    = truncf .bf16 (extractStridedSlice S128x128 ![0, 0] (a3 m c) slices_S263x128_S128x128_0_0) bitsLt_bf16_f32 := by
  dsimp only [V1, W1, hostOps0]
  after_results_simp <;> rfl
theorem V1_v36 (c : Dev nD) : (V1 m ρ c main_v36 : FVec Ideal S128x128 .bf16)
    = truncf .bf16 (extractStridedSlice S128x128 ![128, 0] (a3 m c) slices_S263x128_S128x128_128_0) bitsLt_bf16_f32 := by
  dsimp only [V1, W1, hostOps0]
  after_results_simp <;> rfl
theorem V1_v38 (c : Dev nD) : (V1 m ρ c main_v38 : FVec Ideal S6x128 .bf16)
    = truncf .bf16 (extractStridedSlice S6x128 ![256, 0] (a3 m c) slices_S263x128_S6x128_256_0) bitsLt_bf16_f32 := by
  dsimp only [V1, W1, hostOps0]
  after_results_simp <;> rfl
theorem V1_v39 (c : Dev nD) : (V1 m ρ c main_v39 : FVec Ideal S1x128 .f32)
    = extractStridedSlice S1x128 ![262, 0] (a3 m c) slices_S263x128_S1x128_262_0 := by
  dsimp only [V1, W1, hostOps0]
  after_results_simp <;> rfl
theorem V1_arg4 (c : Dev nD) : (V1 m ρ c main_arg4 : FVec Ideal S128 .f32) = a4 m c := by
  dsimp only [V1, W1, hostOps0]
  after_results_simp <;> rfl
theorem V1_v40 (c : Dev nD) : (V1 m ρ c main_v40 : FVec Ideal S128x128 .bf16) = truncf .bf16 (a5 m c) bitsLt_bf16_f32 := by
  dsimp only [V1, W1, hostOps0]
  after_results_simp <;> rfl
theorem V1_arg6 (c : Dev nD) : (V1 m ρ c main_arg6 : FVec Ideal S128 .f32) = a6 m c := by
  dsimp only [V1, W1, hostOps0]
  after_results_simp <;> rfl
theorem V1_v41 (c : Dev nD) : (V1 m ρ c main_v41 : FVec Ideal S128x128 .bf16) = truncf .bf16 (a11 m c) bitsLt_bf16_f32 := by
  dsimp only [V1, W1, hostOps0]
  after_results_simp <;> rfl
theorem V1_arg12 (c : Dev nD) : (V1 m ρ c main_arg12 : FVec Ideal S128 .f32) = a12 m c := by
  dsimp only [V1, W1, hostOps0]
  after_results_simp <;> rfl
theorem V1_v42 (c : Dev nD) : (V1 m ρ c main_v42 : FVec Ideal S128x1 .bf16) = truncf .bf16 (a13 m c) bitsLt_bf16_f32 := by
  dsimp only [V1, W1, hostOps0]
  after_results_simp <;> rfl

/-! ## Between the regions: a buffer the edge region does not stage keeps what the first host operations left -/

/-- An argument the edge region does not stage and no host operation writes holds, at the edge region's exit, what it
    held at launch (arguments 0, 1, 7, 8, 9, 10). -/
private theorem W2_arg0 (c : Dev nD) : (W2 m ρ c (Proc.devRef .tc main_arg0) : FVec Ideal S50000x128 .f32) = a0 m c := by
  rw [W2_of_ne m ρ c main_arg0 (by decide)]
  show StableHlo.after hostOps0 (W0 m ρ c) (Proc.devRef .tc main_arg0) = _
  dsimp only [hostOps0]
  after_results_simp <;> rfl
private theorem W2_arg1 (c : Dev nD) : (W2 m ρ c (Proc.devRef .tc main_arg1) : FVec Ideal S50000x3 .f32) = a1 m c := by
  rw [W2_of_ne m ρ c main_arg1 (by decide)]
  show StableHlo.after hostOps0 (W0 m ρ c) (Proc.devRef .tc main_arg1) = _
  dsimp only [hostOps0]
  after_results_simp <;> rfl
private theorem W2_arg7 (c : Dev nD) : (W2 m ρ c (Proc.devRef .tc main_arg7) : FVec Ideal S256x128 .f32) = a7 m c := by
  rw [W2_of_ne m ρ c main_arg7 (by decide)]
  show StableHlo.after hostOps0 (W0 m ρ c) (Proc.devRef .tc main_arg7) = _
  dsimp only [hostOps0]
  after_results_simp <;> rfl
private theorem W2_arg8 (c : Dev nD) : (W2 m ρ c (Proc.devRef .tc main_arg8) : FVec Ideal S128 .f32) = a8 m c := by
  rw [W2_of_ne m ρ c main_arg8 (by decide)]
  show StableHlo.after hostOps0 (W0 m ρ c) (Proc.devRef .tc main_arg8) = _
  dsimp only [hostOps0]
  after_results_simp <;> rfl
private theorem W2_arg9 (c : Dev nD) : (W2 m ρ c (Proc.devRef .tc main_arg9) : FVec Ideal S128x128 .f32) = a9 m c := by
  rw [W2_of_ne m ρ c main_arg9 (by decide)]
  show StableHlo.after hostOps0 (W0 m ρ c) (Proc.devRef .tc main_arg9) = _
  dsimp only [hostOps0]
  after_results_simp <;> rfl
private theorem W2_arg10 (c : Dev nD) : (W2 m ρ c (Proc.devRef .tc main_arg10) : FVec Ideal S128 .f32) = a10 m c := by
  rw [W2_of_ne m ρ c main_arg10 (by decide)]
  show StableHlo.after hostOps0 (W0 m ρ c) (Proc.devRef .tc main_arg10) = _
  dsimp only [hostOps0]
  after_results_simp <;> rfl

/-- Row 1 of the index array is still in its buffer at the edge region's exit. -/
private theorem W2_v3 (c : Dev nD) : (W2 m ρ c (Proc.devRef .tc main_v3) : IVec S800000 32) = idxRow1 (a14 m c) := by
  rw [W2_of_ne m ρ c main_v3 (by decide)]
  show StableHlo.after hostOps0 (W0 m ρ c) (Proc.devRef .tc main_v3) = _
  dsimp only [hostOps0]
  after_results_simp <;> rfl

/-! ## The node region's entry contents, and the new positions -/

theorem V3_arg0 (c : Dev nD) : (V3 m ρ c main_arg0 : FVec Ideal S50000x128 .f32) = a0 m c := by
  dsimp only [V3, W3, hostOps1]
  after_results_simp
  exact W2_arg0 m ρ c
theorem V3_v46 (c : Dev nD) : (V3 m ρ c main_v46 : FVec Ideal S50000x128 .f32)
    = Host.scatterAdd scatter_S50000x128_S800000x1_S800000x128_1_0_0_1 (broadcastInDim S50000x128 ![] bcast_S_S50000x128 (constant (F := Ideal) S_ .f32 0x00000000#32))
        (rawCol (idxRow1 (a14 m c))) (W2 m ρ c (Proc.devRef .tc main_v43_0) : FVec Ideal S800000x128 .f32) := by
  dsimp only [V3, W3, hostOps1]
  after_results_simp
  rw [W2_v3]
  rfl
theorem V3_v51 (c : Dev nD) : (V3 m ρ c main_v51 : FVec Ideal S128x128 .f32)
    = extractStridedSlice S128x128 ![0, 0] (a7 m c) slices_S256x128_S128x128_0_0 := by
  dsimp only [V3, W3, hostOps1]
  after_results_simp
  rw [W2_arg7]
theorem V3_v52 (c : Dev nD) : (V3 m ρ c main_v52 : FVec Ideal S128x128 .f32)
    = extractStridedSlice S128x128 ![128, 0] (a7 m c) slices_S256x128_S128x128_128_0 := by
  dsimp only [V3, W3, hostOps1]
  after_results_simp
  rw [W2_arg7]
theorem V3_arg8 (c : Dev nD) : (V3 m ρ c main_arg8 : FVec Ideal S128 .f32) = a8 m c := by
  dsimp only [V3, W3, hostOps1]
  after_results_simp
  exact W2_arg8 m ρ c
theorem V3_arg9 (c : Dev nD) : (V3 m ρ c main_arg9 : FVec Ideal S128x128 .f32) = a9 m c := by
  dsimp only [V3, W3, hostOps1]
  after_results_simp
  exact W2_arg9 m ρ c
theorem V3_arg10 (c : Dev nD) : (V3 m ρ c main_arg10 : FVec Ideal S128 .f32) = a10 m c := by
  dsimp only [V3, W3, hostOps1]
  after_results_simp
  exact W2_arg10 m ρ c
/-- The new positions: no operation of the node region writes them. -/
theorem W4_v50 (c : Dev nD) : (W4 m ρ c (Proc.devRef .tc main_v50) : FVec Ideal S50000x3 .f32)
    = addf (a1 m c) (Host.scatterAdd scatter_S50000x3_S800000x1_S800000x3_1_0_0_1 (broadcastInDim S50000x3 ![] bcast_S_S50000x3 (constant (F := Ideal) S_ .f32 0x00000000#32))
        (rawCol (idxRow1 (a14 m c))) (W2 m ρ c (Proc.devRef .tc main_v43_1) : FVec Ideal S800000x3 .f32)) := by
  rw [W4_of_ne m ρ c main_v50 (by decide)]
  dsimp only [W3, hostOps1]
  after_results_simp
  rw [W2_v3, W2_arg1]
  rfl

end Cert.KernelIdeal.HostValues

end
-- ==== Proof.Spec.lean ====
/-
  The message-passing layer, one row at a time, over the extended reals.

  An edge e carries the two gathered feature rows hr, hc (128 wide), its attribute row ea (6 wide) and the two
  gathered position rows pr, pc (3 wide).  Its message is two dense layers with the activation x · logistic x
  between and after them; the first layer's input is the concatenation (hr, hc, ea, dist) of width 263, so its
  product with a 263 × 128 weight matrix is the sum of four partial products over the four row bands of that
  matrix (`lin_cat263`: a finite sum over 263 = 128 + 128 + 6 + 1 terms regrouped, which needs only that the
  extended reals are a commutative additive monoid, no finiteness).  The coordinate update of the edge is a scalar
  weight (two more layers on the message) times the relative position, divided by the distance plus a constant.
  A node n combines its own feature row with the row of summed messages through a 256 × 128 matrix, again split
  into its two 128-row bands (`lin_cat256`), a second dense layer, and the residual.
-/
import Idealize.ShloMosaic.PureOps.Ideal.Laws
import Idealize.ShloMosaic.Lib.ValueIdx

noncomputable section

namespace Cert.Egnn

open Idealize.ShloMosaic Idealize.ShloMosaic.ValueIdx

/-- Row `e` of a two-axis array. -/
def row {R n : ℕ} (A : (⟨2, ![R, n]⟩ : Shape).Idx → EReal) (e : Fin R) : Fin n → EReal := fun k => A (ix2 e k)
/-- A one-axis array as a function of its coordinate. -/
def vec {n : ℕ} (b : (⟨1, ![n]⟩ : Shape).Idx → EReal) : Fin n → EReal := fun k => b (ix1 k)
/-- A two-axis array as a function of its two coordinates. -/
def mat {K n : ℕ} (W : (⟨2, ![K, n]⟩ : Shape).Idx → EReal) : Fin K → Fin n → EReal := fun k j => W (ix2 k j)
/-- The band of `K` rows of a matrix that starts at row `o`. -/
def band {K' n : ℕ} (K o : ℕ) (h : o + K ≤ K') (W : Fin K' → Fin n → EReal) : Fin K → Fin n → EReal :=
  fun k j => W ⟨o + k.val, by have := k.isLt; omega⟩ j

/-- The activation `x · logistic x`. -/
def silu (x : EReal) : EReal := x * Ideal.logistic x
/-- A row times a matrix, at column `j`. -/
def lin {K n : ℕ} (x : Fin K → EReal) (W : Fin K → Fin n → EReal) (j : Fin n) : EReal := ∑ k, x k * W k j
/-- The relative position of an edge's two end points. -/
def rel (pr pc : Fin 3 → EReal) (k : Fin 3) : EReal := pr k - pc k
/-- Its Euclidean length. -/
def dist (pr pc : Fin 3 → EReal) : EReal := Ideal.sqrt (∑ k, rel pr pc k * rel pr pc k)

/-- The first edge layer before its activation, as the sum of the four partial products and the bias. -/
def pre1 (hr hc : Fin 128 → EReal) (ea : Fin 6 → EReal) (d : EReal) (Wa Wb : Fin 128 → Fin 128 → EReal)
    (Wc : Fin 6 → Fin 128 → EReal) (wd b : Fin 128 → EReal) (j : Fin 128) : EReal :=
  (((lin hr Wa j + lin hc Wb j) + lin ea Wc j) + d * wd j) + b j
/-- A dense layer with bias followed by the activation. -/
def dense {K n : ℕ} (x : Fin K → EReal) (W : Fin K → Fin n → EReal) (b : Fin n → EReal) (j : Fin n) : EReal :=
  silu (lin x W j + b j)
/-- The edge's message row. -/
def msg (hr hc : Fin 128 → EReal) (ea : Fin 6 → EReal) (pr pc : Fin 3 → EReal) (Wa Wb : Fin 128 → Fin 128 → EReal)
    (Wc : Fin 6 → Fin 128 → EReal) (wd b1 : Fin 128 → EReal) (W2 : Fin 128 → Fin 128 → EReal) (b2 : Fin 128 → EReal)
    (j : Fin 128) : EReal :=
  dense (fun k => silu (pre1 hr hc ea (dist pr pc) Wa Wb Wc wd b1 k)) W2 b2 j
/-- The scalar weight of the edge's coordinate update, from its message row. -/
def coordW (mrow : Fin 128 → EReal) (cW1 : Fin 128 → Fin 128 → EReal) (cb1 : Fin 128 → EReal) (cW2 : Fin 128 → Fin 1 → EReal) : EReal :=
  lin (dense mrow cW1 cb1) cW2 0
/-- The edge's coordinate update. -/
def coordDiff (cw : EReal) (pr pc : Fin 3 → EReal) (eps : EReal) (k : Fin 3) : EReal :=
  Ideal.div (cw * rel pr pc k) (dist pr pc + eps)
/-- The node update: the residual plus two dense layers on (own features, summed messages). -/
def node (h mi : Fin 128 → EReal) (Wa Wb : Fin 128 → Fin 128 → EReal) (b1 : Fin 128 → EReal) (W2 : Fin 128 → Fin 128 → EReal)
    (b2 : Fin 128 → EReal) (j : Fin 128) : EReal :=
  h j + (lin (fun k => silu ((lin h Wa k + lin mi Wb k) + b1 k)) W2 j + b2 j)

/-- A sum over `a + b` terms is the sum over the first `a` plus the sum over the last `b`, with the terms named by
    their positions. -/
theorem sum_split {M : Type*} [AddCommMonoid M] {n : ℕ} (a b : ℕ) (hn : a + b = n) (f : Fin n → M) :
    ∑ k, f k = (∑ k : Fin a, f ⟨k.val, by have := k.isLt; omega⟩) + ∑ k : Fin b, f ⟨a + k.val, by have := k.isLt; omega⟩ := by
  subst hn
  rw [Fin.sum_univ_add]
  rfl

/-- The concatenated row of width 263 times a 263-row matrix is the four partial products over the matrix's bands. -/
theorem lin_cat263 (hr hc : Fin 128 → EReal) (ea : Fin 6 → EReal) (d : EReal) (W : Fin 263 → Fin 128 → EReal) (cat : Fin 263 → EReal)
    (h1 : ∀ k : Fin 128, cat ⟨k.val, by have := k.isLt; omega⟩ = hr k)
    (h2 : ∀ k : Fin 128, cat ⟨128 + k.val, by have := k.isLt; omega⟩ = hc k)
    (h3 : ∀ k : Fin 6, cat ⟨256 + k.val, by have := k.isLt; omega⟩ = ea k)
    (h4 : cat ⟨262, by omega⟩ = d) (j : Fin 128) :
    ∑ k, cat k * W k j
      = ((lin hr (band 128 0 (by omega) W) j + lin hc (band 128 128 (by omega) W) j) + lin ea (band 6 256 (by omega) W) j)
        + d * W ⟨262, by omega⟩ j := by
  rw [sum_split 262 1 (by omega) (fun k => cat k * W k j), sum_split 256 6 (by omega), sum_split 128 128 (by omega)]
  simp only [Fin.sum_univ_one, Fin.val_zero, Nat.add_zero, lin, band]
  refine congrArg₂ (· + ·) (congrArg₂ (· + ·) (congrArg₂ (· + ·) ?_ ?_) ?_) ?_
  · exact Finset.sum_congr rfl fun k _ => by rw [h1 k]; exact congrArg (fun q => hr k * W q j) (Fin.ext (by simp))
  · exact Finset.sum_congr rfl fun k _ => by rw [h2 k]
  · exact Finset.sum_congr rfl fun k _ => by rw [h3 k]
  · rw [h4]

/-- The concatenated row of width 256 times a 256-row matrix is the two partial products over the matrix's halves. -/
theorem lin_cat256 (h mi : Fin 128 → EReal) (W : Fin 256 → Fin 128 → EReal) (cat : Fin 256 → EReal)
    (h1 : ∀ k : Fin 128, cat ⟨k.val, by have := k.isLt; omega⟩ = h k)
    (h2 : ∀ k : Fin 128, cat ⟨128 + k.val, by have := k.isLt; omega⟩ = mi k) (j : Fin 128) :
    ∑ k, cat k * W k j = lin h (band 128 0 (by omega) W) j + lin mi (band 128 128 (by omega) W) j := by
  rw [sum_split 128 128 (by omega) (fun k => cat k * W k j)]
  simp only [lin, band]
  refine congrArg₂ (· + ·) ?_ ?_
  · exact Finset.sum_congr rfl fun k _ => by rw [h1 k]; exact congrArg (fun q => h k * W q j) (Fin.ext (by simp))
  · exact Finset.sum_congr rfl fun k _ => by rw [h2 k]

end Cert.Egnn

end
-- ==== Proof.EdgePayload.lean ====
/-
  The edge kernel's first stage, read at one entry.  Entry (r, k) of the relative-position block is the difference of
  row r of the two position blocks; entry (r, 0) of the distance column is the Euclidean length of that row (the lane
  sum of the three squares, then the square root); entry (r, j) of the first dense layer before its activation is the
  sum of the three partial products over row r of the two feature blocks and of the attribute block, of the distance
  times row 0 of the last weight band, and of the bias (`Egnn.pre1`).  Each matrix product has a zero accumulator and
  one contracted axis, so at an entry it is the plain sum `Egnn.lin`; a change of float format is the identity.
-/
import proofs.«153590_j30829275251278_1_alg».proof.Proof.Gen.KernelIdeal.Skeleton
import proofs.«153590_j30829275251278_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgePayload

open Idealize.ShloMosaic Idealize.ShloMosaic.ValueIdx Cert.KernelIdeal Cert.KernelIdeal.Gen Cert.Egnn

/-! ### The 1600 × 128 by 128 × 128 product: its operand indices, axis by axis -/

theorem lhs_a_0 (i : S1600x128.Idx) (q : dot_S1600x128_S128x128_S1600x128_1_0_0_1_n_n.contr.Idx) :
    (dot_S1600x128_S128x128_S1600x128_1_0_0_1_n_n.lhsIdx i q 0).val = (i 0).val := by
  unfold DotDims.lhsIdx
  rw [dif_neg (show ¬(0 : Fin S1600x128.rank) ∈ dot_S1600x128_S128x128_S1600x128_1_0_0_1_n_n.lhsBatch by decide), dif_pos (show (0 : Fin S1600x128.rank) ∈ dot_S1600x128_S128x128_S1600x128_1_0_0_1_n_n.lhsNonContracting by decide)]
  rfl
theorem lhs_a_1 (i : S1600x128.Idx) (q : dot_S1600x128_S128x128_S1600x128_1_0_0_1_n_n.contr.Idx) :
    (dot_S1600x128_S128x128_S1600x128_1_0_0_1_n_n.lhsIdx i q 1).val = (q ⟨0, by decide⟩).val :=
  dot_S1600x128_S128x128_S1600x128_1_0_0_1_n_n.lhsIdx_val_of_single rfl i q
theorem rhs_a_0 (i : S1600x128.Idx) (q : dot_S1600x128_S128x128_S1600x128_1_0_0_1_n_n.contr.Idx) :
    (dot_S1600x128_S128x128_S1600x128_1_0_0_1_n_n.rhsIdx i q 0).val = (q ⟨0, by decide⟩).val :=
  dot_S1600x128_S128x128_S1600x128_1_0_0_1_n_n.rhsIdx_val_of_single rfl i q
theorem rhs_a_1 (i : S1600x128.Idx) (q : dot_S1600x128_S128x128_S1600x128_1_0_0_1_n_n.contr.Idx) :
    (dot_S1600x128_S128x128_S1600x128_1_0_0_1_n_n.rhsIdx i q 1).val = (i 1).val := by
  unfold DotDims.rhsIdx
  rw [dif_neg (show ¬(1 : Fin S128x128.rank) ∈ dot_S1600x128_S128x128_S1600x128_1_0_0_1_n_n.rhsBatch by decide), dif_pos (show (1 : Fin S128x128.rank) ∈ dot_S1600x128_S128x128_S1600x128_1_0_0_1_n_n.rhsNonContracting by decide)]
  rfl

/-- With a zero accumulator and one contracted axis, entry (r, j) of the product is the row-times-matrix sum. -/
theorem matmul_a_apply (v : FVec Ideal S1600x128 .bf16) (w : FVec Ideal S128x128 .bf16) (r : Fin 1600) (j : Fin 128) :
    matmul dot_S1600x128_S128x128_S1600x128_1_0_0_1_n_n none v w (constant S1600x128 .f32 0x00000000#32) (ix2 r j) = lin (row v r) (mat w) j := by
  simp only [matmul]
  rw [Ideal.matmul_constant_zero_apply, ← Equiv.sum_comp (contrEquiv1 dot_S1600x128_S128x128_S1600x128_1_0_0_1_n_n 128 rfl rfl).symm]
  unfold lin row mat
  refine Finset.sum_congr rfl fun k _ => ?_
  have hk := contrEquiv1_symm_val dot_S1600x128_S128x128_S1600x128_1_0_0_1_n_n 128 rfl rfl k
  have el : dot_S1600x128_S128x128_S1600x128_1_0_0_1_n_n.lhsIdx (ix2 r j) ((contrEquiv1 dot_S1600x128_S128x128_S1600x128_1_0_0_1_n_n 128 rfl rfl).symm k) = ix2 r k := funext fun a => Fin.ext (by
    match a with
    | ⟨0, _⟩ => exact lhs_a_0 _ _
    | ⟨1, _⟩ => exact (lhs_a_1 _ _).trans hk)
  have er : dot_S1600x128_S128x128_S1600x128_1_0_0_1_n_n.rhsIdx (ix2 r j) ((contrEquiv1 dot_S1600x128_S128x128_S1600x128_1_0_0_1_n_n 128 rfl rfl).symm k) = ix2 k j := funext fun a => Fin.ext (by
    match a with
    | ⟨0, _⟩ => exact (rhs_a_0 _ _).trans hk
    | ⟨1, _⟩ => exact rhs_a_1 _ _)
  rw [el, er]

/-! ### The 1600 × 6 by 6 × 128 product: its operand indices, axis by axis -/

theorem lhs_c_0 (i : S1600x128.Idx) (q : dot_S1600x6_S6x128_S1600x128_1_0_0_1_n_n.contr.Idx) :
    (dot_S1600x6_S6x128_S1600x128_1_0_0_1_n_n.lhsIdx i q 0).val = (i 0).val := by
  unfold DotDims.lhsIdx
  rw [dif_neg (show ¬(0 : Fin S1600x6.rank) ∈ dot_S1600x6_S6x128_S1600x128_1_0_0_1_n_n.lhsBatch by decide), dif_pos (show (0 : Fin S1600x6.rank) ∈ dot_S1600x6_S6x128_S1600x128_1_0_0_1_n_n.lhsNonContracting by decide)]
  rfl
theorem lhs_c_1 (i : S1600x128.Idx) (q : dot_S1600x6_S6x128_S1600x128_1_0_0_1_n_n.contr.Idx) :
    (dot_S1600x6_S6x128_S1600x128_1_0_0_1_n_n.lhsIdx i q 1).val = (q ⟨0, by decide⟩).val :=
  dot_S1600x6_S6x128_S1600x128_1_0_0_1_n_n.lhsIdx_val_of_single rfl i q
theorem rhs_c_0 (i : S1600x128.Idx) (q : dot_S1600x6_S6x128_S1600x128_1_0_0_1_n_n.contr.Idx) :
    (dot_S1600x6_S6x128_S1600x128_1_0_0_1_n_n.rhsIdx i q 0).val = (q ⟨0, by decide⟩).val :=
  dot_S1600x6_S6x128_S1600x128_1_0_0_1_n_n.rhsIdx_val_of_single rfl i q
theorem rhs_c_1 (i : S1600x128.Idx) (q : dot_S1600x6_S6x128_S1600x128_1_0_0_1_n_n.contr.Idx) :
    (dot_S1600x6_S6x128_S1600x128_1_0_0_1_n_n.rhsIdx i q 1).val = (i 1).val := by
  unfold DotDims.rhsIdx
  rw [dif_neg (show ¬(1 : Fin S6x128.rank) ∈ dot_S1600x6_S6x128_S1600x128_1_0_0_1_n_n.rhsBatch by decide), dif_pos (show (1 : Fin S6x128.rank) ∈ dot_S1600x6_S6x128_S1600x128_1_0_0_1_n_n.rhsNonContracting by decide)]
  rfl

/-- With a zero accumulator and one contracted axis, entry (r, j) of the product is the row-times-matrix sum. -/
theorem matmul_c_apply (v : FVec Ideal S1600x6 .bf16) (w : FVec Ideal S6x128 .bf16) (r : Fin 1600) (j : Fin 128) :
    matmul dot_S1600x6_S6x128_S1600x128_1_0_0_1_n_n none v w (constant S1600x128 .f32 0x00000000#32) (ix2 r j) = lin (row v r) (mat w) j := by
  simp only [matmul]
  rw [Ideal.matmul_constant_zero_apply, ← Equiv.sum_comp (contrEquiv1 dot_S1600x6_S6x128_S1600x128_1_0_0_1_n_n 6 rfl rfl).symm]
  unfold lin row mat
  refine Finset.sum_congr rfl fun k _ => ?_
  have hk := contrEquiv1_symm_val dot_S1600x6_S6x128_S1600x128_1_0_0_1_n_n 6 rfl rfl k
  have el : dot_S1600x6_S6x128_S1600x128_1_0_0_1_n_n.lhsIdx (ix2 r j) ((contrEquiv1 dot_S1600x6_S6x128_S1600x128_1_0_0_1_n_n 6 rfl rfl).symm k) = ix2 r k := funext fun a => Fin.ext (by
    match a with
    | ⟨0, _⟩ => exact lhs_c_0 _ _
    | ⟨1, _⟩ => exact (lhs_c_1 _ _).trans hk)
  have er : dot_S1600x6_S6x128_S1600x128_1_0_0_1_n_n.rhsIdx (ix2 r j) ((contrEquiv1 dot_S1600x6_S6x128_S1600x128_1_0_0_1_n_n 6 rfl rfl).symm k) = ix2 k j := funext fun a => Fin.ext (by
    match a with
    | ⟨0, _⟩ => exact (rhs_c_0 _ _).trans hk
    | ⟨1, _⟩ => exact rhs_c_1 _ _)
  rw [el, er]

/-! ### The layout operations of this stage, read at an entry -/

/-- A square root at an entry is the square root of the entry. -/
theorem sqrt_apply {s : Shape} {φ : FTy} (a : FVec Ideal s φ) (i : s.Idx) : sqrt a i = Ideal.sqrt (a i) := rfl

/-- The lane sum of a three-wide block, at row r: the sum of the row's three entries. -/
theorem rowsum_apply (x : FVec Ideal S1600x3 .f32) (r : Fin 1600) :
    multiReduction (F := Ideal) .add [1] S1600 x 0x00000000#32 reduces_S1600x3_S1600 (.inl rfl) rfl (ix1 r)
      = ∑ k : Fin 3, x (ix2 r k) := by
  refine (Ideal.multiReduction_add_single x 0x00000000#32 reduces_S1600x3_S1600 (.inl rfl) rfl (ix1 r)).trans ?_
  refine Finset.sum_congr rfl fun k _ => congrArg x ?_
  funext a
  refine Fin.ext ?_
  match a with
  | ⟨0, _⟩ => rfl
  | ⟨1, _⟩ => rfl

/-- A length-1600 array cast to a 1600 × 1 column reads, at (r, u), the operand at r. -/
theorem shapeCast_col_apply {α : Type} (x : S1600.Idx → α) (h : S1600.ShapeCasts S1600x1) (r : Fin 1600) (u : Fin 1) :
    shapeCast S1600x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A 1600 × 1 column broadcast to 1600 × 128 reads, at (r, j), the column at row r. -/
theorem broadcastTo_col_apply {α : Type} (x : S1600x1.Idx → α) (h : S1600x1.Broadcasts S1600x128) (r : Fin 1600) (j : Fin 128) :
    broadcastTo S1600x128 x h (ix2 r j) = x (ix2 r 0) := by
  refine broadcastTo_apply x h (ix2 r j) (ix2 r 0) fun ax => ?_
  match ax with
  | ⟨0, _⟩ => rfl
  | ⟨1, _⟩ => rfl

/-- The relative position block at entry (r, k). -/
theorem pay3_apply (v5 v7 : Vec Ideal S1600x3 .f32) (r : Fin 1600) (k : Fin 3) :
    k0_pay3 (F := Ideal) v5 v7 (ix2 r k) = rel (row v5 r) (row v7 r) k := by
  unfold k0_pay3
  simp only [shapeCast_self, subf_apply]
  rfl

/-- The distance column at entry (r, 0). -/
theorem pay4_apply (v5 v7 : Vec Ideal S1600x3 .f32) (r : Fin 1600) :
    k0_pay4 (F := Ideal) v5 v7 (ix2 r 0) = dist (row v5 r) (row v7 r) := by
  unfold k0_pay4
  simp only [sqrt_apply, shapeCast_col_apply]
  refine congrArg Ideal.sqrt ((rowsum_apply _ r).trans ?_)
  exact Finset.sum_congr rfl fun k _ => by rw [mulf_apply, pay3_apply]

/-- The first layer before its activation, at entry (r, j) of the block. -/
theorem pay5_apply (v0 v2 : Vec Ideal S1600x128 .bf16) (v4 : Vec Ideal S1600x6 .f32) (v5 v7 : Vec Ideal S1600x3 .f32)
    (v14 v16 : Vec Ideal S128x128 .bf16) (v18 : Vec Ideal S6x128 .bf16) (v20 : Vec Ideal S1x128 .f32) (v22 : Vec Ideal S128 .f32)
    (r : Fin 1600) (j : Fin 128) :
    k0_pay5 (F := Ideal) v0 v2 v4 v5 v7 v14 v16 v18 v20 v22 (ix2 r j)
      = pre1 (row v0 r) (row v2 r) (row v4 r) (dist (row v5 r) (row v7 r)) (mat v14) (mat v16) (mat v18) (row v20 0) (vec v22) j := by
  unfold k0_pay5 pre1
  simp only [addf_apply, mulf_apply, shapeCast_self, matmul_a_apply, matmul_c_apply, broadcastTo_col_apply, broadcastTo_1b_ab_apply,
    shapeCast_a_1a_apply, pay4_apply]
  rfl

end Cert.KernelIdeal.EdgePayload

end
-- ==== Proof.EdgePayload2.lean ====
/-
  The edge kernel's two stored values, read at one entry, from the first layer's pre-activation block.  Entry (r, j) of
  the message block is the second dense layer with its activation (`Egnn.dense`) of the activated row r; entry (r, k) of
  the coordinate block is the scalar weight of row r (two more layers on the message row, `Egnn.coordW`) times the
  relative position, divided by the distance plus the constant.  Each matrix product has a zero accumulator and one
  contracted axis, so at an entry it is the plain sum `Egnn.lin`; a change of float format is the identity.
-/
import proofs.«153590_j30829275251278_1_alg».proof.Proof.Gen.KernelIdeal.Skeleton
import proofs.«153590_j30829275251278_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgePayload

open Idealize.ShloMosaic Idealize.ShloMosaic.ValueIdx Cert.KernelIdeal Cert.KernelIdeal.Gen Cert.Egnn

/-- Operand coordinates of the [1600,128] × [128,128] product at output entry `i` and contraction index `q`: the left operand is read
    at (row of `i`, `q`), the right operand at (`q`, column of `i`). -/
theorem lhs_b128_0 (i : S1600x128.Idx) (q : dot_S1600x128_S128x128_S1600x128_1_0_0_1_n_n.contr.Idx) :
    (dot_S1600x128_S128x128_S1600x128_1_0_0_1_n_n.lhsIdx i q 0).val = (i 0).val := by
  unfold DotDims.lhsIdx
  rw [dif_neg (show ¬(0 : Fin S1600x128.rank) ∈ dot_S1600x128_S128x128_S1600x128_1_0_0_1_n_n.lhsBatch by decide), dif_pos (show (0 : Fin S1600x128.rank) ∈ dot_S1600x128_S128x128_S1600x128_1_0_0_1_n_n.lhsNonContracting by decide)]
  rfl
theorem lhs_b128_1 (i : S1600x128.Idx) (q : dot_S1600x128_S128x128_S1600x128_1_0_0_1_n_n.contr.Idx) :
    (dot_S1600x128_S128x128_S1600x128_1_0_0_1_n_n.lhsIdx i q 1).val = (q ⟨0, by decide⟩).val :=
  dot_S1600x128_S128x128_S1600x128_1_0_0_1_n_n.lhsIdx_val_of_single rfl i q
theorem rhs_b128_0 (i : S1600x128.Idx) (q : dot_S1600x128_S128x128_S1600x128_1_0_0_1_n_n.contr.Idx) :
    (dot_S1600x128_S128x128_S1600x128_1_0_0_1_n_n.rhsIdx i q 0).val = (q ⟨0, by decide⟩).val :=
  dot_S1600x128_S128x128_S1600x128_1_0_0_1_n_n.rhsIdx_val_of_single rfl i q
theorem rhs_b128_1 (i : S1600x128.Idx) (q : dot_S1600x128_S128x128_S1600x128_1_0_0_1_n_n.contr.Idx) :
    (dot_S1600x128_S128x128_S1600x128_1_0_0_1_n_n.rhsIdx i q 1).val = (i 1).val := by
  unfold DotDims.rhsIdx
  rw [dif_neg (show ¬(1 : Fin S128x128.rank) ∈ dot_S1600x128_S128x128_S1600x128_1_0_0_1_n_n.rhsBatch by decide), dif_pos (show (1 : Fin S128x128.rank) ∈ dot_S1600x128_S128x128_S1600x128_1_0_0_1_n_n.rhsNonContracting by decide)]
  rfl

/-- The [1600,128] × [128,128] product into a zero accumulator, at entry (r, j): row r of the left operand times the right operand,
    at column j. -/
theorem matmul_b128_apply (v : FVec Ideal S1600x128 .bf16) (w : FVec Ideal S128x128 .bf16) (r : Fin 1600) (j : Fin 128) :
    matmul dot_S1600x128_S128x128_S1600x128_1_0_0_1_n_n none v w (constant S1600x128 .f32 0x00000000#32) (ix2 r j) = lin (row v r) (mat w) j := by
  simp only [matmul]
  rw [Ideal.matmul_constant_zero_apply, ← Equiv.sum_comp (contrEquiv1 dot_S1600x128_S128x128_S1600x128_1_0_0_1_n_n 128 rfl rfl).symm]
  unfold lin
  refine Finset.sum_congr rfl fun k _ => ?_
  have hk := contrEquiv1_symm_val dot_S1600x128_S128x128_S1600x128_1_0_0_1_n_n 128 rfl rfl k
  have el : dot_S1600x128_S128x128_S1600x128_1_0_0_1_n_n.lhsIdx (ix2 r j) ((contrEquiv1 dot_S1600x128_S128x128_S1600x128_1_0_0_1_n_n 128 rfl rfl).symm k) = ix2 r k := funext fun a => Fin.ext (by
    match a with
    | ⟨0, _⟩ => exact lhs_b128_0 _ _
    | ⟨1, _⟩ => exact (lhs_b128_1 _ _).trans hk)
  have er : dot_S1600x128_S128x128_S1600x128_1_0_0_1_n_n.rhsIdx (ix2 r j) ((contrEquiv1 dot_S1600x128_S128x128_S1600x128_1_0_0_1_n_n 128 rfl rfl).symm k) = ix2 k j := funext fun a => Fin.ext (by
    match a with
    | ⟨0, _⟩ => exact (rhs_b128_0 _ _).trans hk
    | ⟨1, _⟩ => exact rhs_b128_1 _ _)
  rw [el, er]
  rfl

/-- Operand coordinates of the [1600,128] × [128,1] product at output entry `i` and contraction index `q`: the left operand is read
    at (row of `i`, `q`), the right operand at (`q`, column of `i`). -/
theorem lhs_b1_0 (i : S1600x1.Idx) (q : dot_S1600x128_S128x1_S1600x1_1_0_0_1_n_n.contr.Idx) :
    (dot_S1600x128_S128x1_S1600x1_1_0_0_1_n_n.lhsIdx i q 0).val = (i 0).val := by
  unfold DotDims.lhsIdx
  rw [dif_neg (show ¬(0 : Fin S1600x128.rank) ∈ dot_S1600x128_S128x1_S1600x1_1_0_0_1_n_n.lhsBatch by decide), dif_pos (show (0 : Fin S1600x128.rank) ∈ dot_S1600x128_S128x1_S1600x1_1_0_0_1_n_n.lhsNonContracting by decide)]
  rfl
theorem lhs_b1_1 (i : S1600x1.Idx) (q : dot_S1600x128_S128x1_S1600x1_1_0_0_1_n_n.contr.Idx) :
    (dot_S1600x128_S128x1_S1600x1_1_0_0_1_n_n.lhsIdx i q 1).val = (q ⟨0, by decide⟩).val :=
  dot_S1600x128_S128x1_S1600x1_1_0_0_1_n_n.lhsIdx_val_of_single rfl i q
theorem rhs_b1_0 (i : S1600x1.Idx) (q : dot_S1600x128_S128x1_S1600x1_1_0_0_1_n_n.contr.Idx) :
    (dot_S1600x128_S128x1_S1600x1_1_0_0_1_n_n.rhsIdx i q 0).val = (q ⟨0, by decide⟩).val :=
  dot_S1600x128_S128x1_S1600x1_1_0_0_1_n_n.rhsIdx_val_of_single rfl i q
theorem rhs_b1_1 (i : S1600x1.Idx) (q : dot_S1600x128_S128x1_S1600x1_1_0_0_1_n_n.contr.Idx) :
    (dot_S1600x128_S128x1_S1600x1_1_0_0_1_n_n.rhsIdx i q 1).val = (i 1).val := by
  unfold DotDims.rhsIdx
  rw [dif_neg (show ¬(1 : Fin S128x1.rank) ∈ dot_S1600x128_S128x1_S1600x1_1_0_0_1_n_n.rhsBatch by decide), dif_pos (show (1 : Fin S128x1.rank) ∈ dot_S1600x128_S128x1_S1600x1_1_0_0_1_n_n.rhsNonContracting by decide)]
  rfl

/-- The [1600,128] × [128,1] product into a zero accumulator, at entry (r, j): row r of the left operand times the right operand,
    at column j. -/
theorem matmul_b1_apply (v : FVec Ideal S1600x128 .bf16) (w : FVec Ideal S128x1 .bf16) (r : Fin 1600) (j : Fin 1) :
    matmul dot_S1600x128_S128x1_S1600x1_1_0_0_1_n_n none v w (constant S1600x1 .f32 0x00000000#32) (ix2 r j) = lin (row v r) (mat w) j := by
  simp only [matmul]
  rw [Ideal.matmul_constant_zero_apply, ← Equiv.sum_comp (contrEquiv1 dot_S1600x128_S128x1_S1600x1_1_0_0_1_n_n 128 rfl rfl).symm]
  unfold lin
  refine Finset.sum_congr rfl fun k _ => ?_
  have hk := contrEquiv1_symm_val dot_S1600x128_S128x1_S1600x1_1_0_0_1_n_n 128 rfl rfl k
  have el : dot_S1600x128_S128x1_S1600x1_1_0_0_1_n_n.lhsIdx (ix2 r j) ((contrEquiv1 dot_S1600x128_S128x1_S1600x1_1_0_0_1_n_n 128 rfl rfl).symm k) = ix2 r k := funext fun a => Fin.ext (by
    match a with
    | ⟨0, _⟩ => exact lhs_b1_0 _ _
    | ⟨1, _⟩ => exact (lhs_b1_1 _ _).trans hk)
  have er : dot_S1600x128_S128x1_S1600x1_1_0_0_1_n_n.rhsIdx (ix2 r j) ((contrEquiv1 dot_S1600x128_S128x1_S1600x1_1_0_0_1_n_n 128 rfl rfl).symm k) = ix2 k j := funext fun a => Fin.ext (by
    match a with
    | ⟨0, _⟩ => exact (rhs_b1_0 _ _).trans hk
    | ⟨1, _⟩ => exact rhs_b1_1 _ _)
  rw [el, er]
  rfl

/-- The logistic function of a block, at an entry. -/
theorem logistic_b_apply {s : Shape} {φ : FTy} (a : FVec Ideal s φ) (i : s.Idx) : logistic a i = Ideal.logistic (a i) := rfl

/-- An `[a, 1]` column broadcast to `[a, b]` reads, at `(p, c)`, the column at row `p`. -/
theorem broadcastTo_a1_ab_b_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The message block at entry (r, j), from the first layer's pre-activation block `v35`. -/
theorem pay1_apply (v35 : FVec Ideal S1600x128 .f32) (v38 : Vec Ideal S128x128 .bf16) (v40 : Vec Ideal S128 .f32) (r : Fin 1600) (j : Fin 128) :
    k0_pay1 (F := Ideal) v35 v38 v40 (ix2 r j) = dense (fun k => silu (v35 (ix2 r k))) (mat v38) (vec v40) j := by
  unfold k0_pay1
  rw [mulf_apply, logistic_b_apply, addf_apply, matmul_b128_apply, broadcastTo_1b_ab_apply, shapeCast_a_1a_apply, shapeCast_self]
  rfl

/-- The coordinate block at entry (r, k), from the relative position block `v9`, the distance column `v13` and the
    first layer's pre-activation block `v35`. -/
theorem pay2_apply (v9 : FVec Ideal S1600x3 .f32) (v13 : FVec Ideal S1600x1 .f32) (v35 : FVec Ideal S1600x128 .f32)
    (v38 : Vec Ideal S128x128 .bf16) (v40 : Vec Ideal S128 .f32) (v49 : Vec Ideal S128x128 .bf16) (v51 : Vec Ideal S128 .f32)
    (v59 : Vec Ideal S128x1 .bf16) (r : Fin 1600) (k : Fin 3) :
    k0_pay2 (F := Ideal) v9 v13 v35 v38 v40 v49 v51 v59 (ix2 r k)
      = Ideal.div (coordW (dense (fun q => silu (v35 (ix2 r q))) (mat v38) (vec v40)) (mat v49) (vec v51) (mat v59) * v9 (ix2 r k))
          (v13 (ix2 r 0) + Ideal.ofBits .f32 0x322BCC77#32) := by
  have hrow : row (truncf .bf16 (k0_pay1 (F := Ideal) v35 v38 v40) bitsLt_bf16_f32) r
      = dense (fun q => silu (v35 (ix2 r q))) (mat v38) (vec v40) := funext fun q => pay1_apply v35 v38 v40 r q
  unfold k0_pay2
  rw [divf_apply, mulf_apply, broadcastTo_a1_ab_b_apply, broadcastTo_a1_ab_b_apply, addf_apply, broadcast_apply, matmul_b1_apply, shapeCast_self, shapeCast_self]
  refine congrArg₂ Ideal.div (congrArg (· * v9 (ix2 r k)) ?_) rfl
  unfold coordW
  refine congrArg (fun x => lin x (mat v59) 0) (funext fun q => ?_)
  unfold row
  rw [truncf_apply, mulf_apply, logistic_b_apply, addf_apply, matmul_b128_apply, broadcastTo_1b_ab_apply, shapeCast_a_1a_apply, hrow]
  rfl

end Cert.KernelIdeal.EdgePayload

end
-- ==== Proof.EdgeArrays.lean ====
/-
  The edge region's two output arrays after the region, as whole arrays, for any contents `V` the region is entered
  at.  Grid point t writes rows 1600·t … 1600·t + 1599 of each output; row r of its block is computed from row r of the
  point's five row-blocks (rows 1600·t + r of the five edge arrays) and from the weight arrays, which every point
  stages whole.  The 500 blocks tile the 800000 rows, so entry (e, j) of the message array is the message row of edge e
  at j, and entry (e, k) of the coordinate array is edge e's coordinate update at k.
-/
import proofs.«153590_j30829275251278_1_alg».proof.Proof.Patched.KernelIdeal.Frame
import proofs.«153590_j30829275251278_1_alg».proof.Proof.EdgePayload
import proofs.«153590_j30829275251278_1_alg».proof.Proof.EdgePayload2
import proofs.«153590_j30829275251278_1_alg».proof.Proof.Spec
import Idealize.ShloMosaic.Lib.Pipeline.Value
import Idealize.ShloMosaic.Lib.ValueIdx

set_option maxRecDepth 16384

noncomputable section

namespace Cert.KernelIdeal.EdgeArrays

open Idealize.ShloMosaic Idealize.ShloMosaic.TcCoe Idealize.ShloMosaic.ValueIdx Idealize.SL.Sem
open Cert.KernelIdeal Cert.KernelIdeal.Gen Cert.KernelIdeal.GenP Cert.Egnn

variable (V : (c : Dev nD) → (b : Ref sig .tc) → Buf (Elt Ideal) ((c : Thread nD τ).loc b))

/-- The message row of edge `e`, from the arrays as the region finds them. -/
def msgRow (c : Dev nD) (e : Fin 800000) : Fin 128 → EReal :=
  msg (row (V c main_v11 : FVec Ideal S800000x128 .bf16) e) (row (V c main_v18 : FVec Ideal S800000x128 .bf16) e)
    (row (V c main_arg2 : FVec Ideal S800000x6 .f32) e)
    (row (V c main_v25 : FVec Ideal S800000x3 .f32) e) (row (V c main_v32 : FVec Ideal S800000x3 .f32) e)
    (mat (V c main_v34 : FVec Ideal S128x128 .bf16)) (mat (V c main_v36 : FVec Ideal S128x128 .bf16))
    (mat (V c main_v38 : FVec Ideal S6x128 .bf16)) (row (V c main_v39 : FVec Ideal S1x128 .f32) 0)
    (vec (V c main_arg4 : FVec Ideal S128 .f32)) (mat (V c main_v40 : FVec Ideal S128x128 .bf16))
    (vec (V c main_arg6 : FVec Ideal S128 .f32))

/-- The coordinate update of edge `e`, from the arrays as the region finds them. -/
def cdRow (c : Dev nD) (e : Fin 800000) : Fin 3 → EReal :=
  coordDiff (coordW (msgRow V c e) (mat (V c main_v41 : FVec Ideal S128x128 .bf16)) (vec (V c main_arg12 : FVec Ideal S128 .f32))
      (mat (V c main_v42 : FVec Ideal S128x1 .bf16)))
    (row (V c main_v25 : FVec Ideal S800000x3 .f32) e) (row (V c main_v32 : FVec Ideal S800000x3 .f32) e)
    (Ideal.ofBits .f32 0x322BCC77#32)

/-- The message block at entry (r, j), from the fifteen blocks the body reads. -/
theorem msg_at (x0 x1 : Vec Ideal S1600x128 .bf16) (x2 : Vec Ideal S1600x6 .f32) (x3 x4 : Vec Ideal S1600x3 .f32)
    (x5 x6 : Vec Ideal S128x128 .bf16) (x7 : Vec Ideal S6x128 .bf16) (x8 : Vec Ideal S1x128 .f32) (x9 : Vec Ideal S128 .f32)
    (x10 : Vec Ideal S128x128 .bf16) (x11 : Vec Ideal S128 .f32) (r : Fin 1600) (j : Fin 128) :
    k0_pay1 (F := Ideal) (k0_pay5 (F := Ideal) x0 x1 x2 x3 x4 x5 x6 x7 x8 x9) x10 x11 (ix2 r j)
      = msg (row x0 r) (row x1 r) (row x2 r) (row x3 r) (row x4 r) (mat x5) (mat x6) (mat x7) (row x8 0) (vec x9) (mat x10) (vec x11) j := by
  rw [EdgePayload.pay1_apply]
  simp only [EdgePayload.pay5_apply]
  rfl

/-- The coordinate block at entry (r, k), from the fifteen blocks the body reads. -/
theorem cd_at (x0 x1 : Vec Ideal S1600x128 .bf16) (x2 : Vec Ideal S1600x6 .f32) (x3 x4 : Vec Ideal S1600x3 .f32)
    (x5 x6 : Vec Ideal S128x128 .bf16) (x7 : Vec Ideal S6x128 .bf16) (x8 : Vec Ideal S1x128 .f32) (x9 : Vec Ideal S128 .f32)
    (x10 : Vec Ideal S128x128 .bf16) (x11 : Vec Ideal S128 .f32) (x12 : Vec Ideal S128x128 .bf16) (x13 : Vec Ideal S128 .f32)
    (x14 : Vec Ideal S128x1 .bf16) (r : Fin 1600) (k : Fin 3) :
    k0_pay2 (F := Ideal) (k0_pay3 (F := Ideal) x3 x4) (k0_pay4 (F := Ideal) x3 x4) (k0_pay5 (F := Ideal) x0 x1 x2 x3 x4 x5 x6 x7 x8 x9)
        x10 x11 x12 x13 x14 (ix2 r k)
      = coordDiff (coordW (msg (row x0 r) (row x1 r) (row x2 r) (row x3 r) (row x4 r) (mat x5) (mat x6) (mat x7) (row x8 0) (vec x9)
            (mat x10) (vec x11)) (mat x12) (vec x13) (mat x14))
          (row x3 r) (row x4 r) (Ideal.ofBits .f32 0x322BCC77#32) k := by
  rw [EdgePayload.pay2_apply, EdgePayload.pay3_apply, EdgePayload.pay4_apply]
  simp only [EdgePayload.pay5_apply]
  rfl

/-- The printed index maps over the grid: a row-block window's block index at point t is (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- A weight window's block index is zero on every axis, at every point. -/
theorem idx_weights : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0)
    ∧ win0_13.index t (0 : Fin 1) = 0
    ∧ (win0_14.index t (0 : Fin 2) = 0 ∧ win0_14.index t (1 : Fin 2) = 0) :=
  (by decide +kernel : ∀ t : Fin grid0.N, _)

/-- Row r of window 0's block at point t is row 1600·t + r of its array. -/
theorem row_blk0 (c : Dev nD) (t : Fin cfg0.N) (r : Fin 1600) (e : Fin 800000) (he : e.val = 1600 * t.val + r.val) :
    row (iblk0 (F := Ideal) V c 0 t : Vec Ideal S1600x128 .bf16) r = row (V c main_v11 : FVec Ideal S800000x128 .bf16) e := by
  funext k
  show (V c main_v11 : FVec Ideal S800000x128 .bf16) (((cfg0.win 0).blk t).view.emb (ix2 r k)) = (V c main_v11 : FVec Ideal S800000x128 .bf16) (ix2 e k)
  congr 1
  funext a; apply Fin.ext
  obtain ⟨⟨h0, h1⟩, -⟩ := idx_rows t
  match a with
  | ⟨0, _⟩ => show win0_0.index t (0 : Fin 2) * 1600 + 1 * r.val = e.val; rw [h0, he]; omega
  | ⟨1, _⟩ => show win0_0.index t (1 : Fin 2) * 128 + 1 * k.val = k.val; rw [h1]; omega

/-- Row r of window 1's block at point t is row 1600·t + r of its array. -/
theorem row_blk1 (c : Dev nD) (t : Fin cfg0.N) (r : Fin 1600) (e : Fin 800000) (he : e.val = 1600 * t.val + r.val) :
    row (iblk0 (F := Ideal) V c 1 t : Vec Ideal S1600x128 .bf16) r = row (V c main_v18 : FVec Ideal S800000x128 .bf16) e := by
  funext k
  show (V c main_v18 : FVec Ideal S800000x128 .bf16) (((cfg0.win 1).blk t).view.emb (ix2 r k)) = (V c main_v18 : FVec Ideal S800000x128 .bf16) (ix2 e k)
  congr 1
  funext a; apply Fin.ext
  obtain ⟨-, ⟨h0, h1⟩, -⟩ := idx_rows t
  match a with
  | ⟨0, _⟩ => show win0_1.index t (0 : Fin 2) * 1600 + 1 * r.val = e.val; rw [h0, he]; omega
  | ⟨1, _⟩ => show win0_1.index t (1 : Fin 2) * 128 + 1 * k.val = k.val; rw [h1]; omega

/-- Row r of window 2's block at point t is row 1600·t + r of its array. -/
theorem row_blk2 (c : Dev nD) (t : Fin cfg0.N) (r : Fin 1600) (e : Fin 800000) (he : e.val = 1600 * t.val + r.val) :
    row (iblk0 (F := Ideal) V c 2 t : Vec Ideal S1600x6 .f32) r = row (V c main_arg2 : FVec Ideal S800000x6 .f32) e := by
  funext k
  show (V c main_arg2 : FVec Ideal S800000x6 .f32) (((cfg0.win 2).blk t).view.emb (ix2 r k)) = (V c main_arg2 : FVec Ideal S800000x6 .f32) (ix2 e k)
  congr 1
  funext a; apply Fin.ext
  obtain ⟨-, -, ⟨h0, h1⟩, -⟩ := idx_rows t
  match a with
  | ⟨0, _⟩ => show win0_2.index t (0 : Fin 2) * 1600 + 1 * r.val = e.val; rw [h0, he]; omega
  | ⟨1, _⟩ => show win0_2.index t (1 : Fin 2) * 6 + 1 * k.val = k.val; rw [h1]; omega

/-- Row r of window 3's block at point t is row 1600·t + r of its array. -/
theorem row_blk3 (c : Dev nD) (t : Fin cfg0.N) (r : Fin 1600) (e : Fin 800000) (he : e.val = 1600 * t.val + r.val) :
    row (iblk0 (F := Ideal) V c 3 t : Vec Ideal S1600x3 .f32) r = row (V c main_v25 : FVec Ideal S800000x3 .f32) e := by
  funext k
  show (V c main_v25 : FVec Ideal S800000x3 .f32) (((cfg0.win 3).blk t).view.emb (ix2 r k)) = (V c main_v25 : FVec Ideal S800000x3 .f32) (ix2 e k)
  congr 1
  funext a; apply Fin.ext
  obtain ⟨-, -, -, ⟨h0, h1⟩, -⟩ := idx_rows t
  match a with
  | ⟨0, _⟩ => show win0_3.index t (0 : Fin 2) * 1600 + 1 * r.val = e.val; rw [h0, he]; omega
  | ⟨1, _⟩ => show win0_3.index t (1 : Fin 2) * 3 + 1 * k.val = k.val; rw [h1]; omega

/-- Row r of window 4's block at point t is row 1600·t + r of its array. -/
theorem row_blk4 (c : Dev nD) (t : Fin cfg0.N) (r : Fin 1600) (e : Fin 800000) (he : e.val = 1600 * t.val + r.val) :
    row (iblk0 (F := Ideal) V c 4 t : Vec Ideal S1600x3 .f32) r = row (V c main_v32 : FVec Ideal S800000x3 .f32) e := by
  funext k
  show (V c main_v32 : FVec Ideal S800000x3 .f32) (((cfg0.win 4).blk t).view.emb (ix2 r k)) = (V c main_v32 : FVec Ideal S800000x3 .f32) (ix2 e k)
  congr 1
  funext a; apply Fin.ext
  obtain ⟨-, -, -, -, ⟨h0, h1⟩, -⟩ := idx_rows t
  match a with
  | ⟨0, _⟩ => show win0_4.index t (0 : Fin 2) * 1600 + 1 * r.val = e.val; rw [h0, he]; omega
  | ⟨1, _⟩ => show win0_4.index t (1 : Fin 2) * 3 + 1 * k.val = k.val; rw [h1]; omega

/-- Window 5's block at every point is its whole array. -/
theorem blk5 (c : Dev nD) (t : Fin cfg0.N) :
    (iblk0 (F := Ideal) V c 5 t : Vec Ideal S128x128 .bf16) = (V c main_v34 : FVec Ideal S128x128 .bf16) := by
  funext y
  show (V c main_v34 : FVec Ideal S128x128 .bf16) (((cfg0.win 5).blk t).view.emb y) = (V c main_v34 : FVec Ideal S128x128 .bf16) y
  congr 1
  funext a; apply Fin.ext
  obtain ⟨⟨h0, h1⟩, -⟩ := idx_weights t
  match a with
  | ⟨0, _⟩ => show win0_5.index t (0 : Fin 2) * 128 + 1 * (y 0).val = (y 0).val; rw [h0]; omega
  | ⟨1, _⟩ => show win0_5.index t (1 : Fin 2) * 128 + 1 * (y 1).val = (y 1).val; rw [h1]; omega

/-- Window 6's block at every point is its whole array. -/
theorem blk6 (c : Dev nD) (t : Fin cfg0.N) :
    (iblk0 (F := Ideal) V c 6 t : Vec Ideal S128x128 .bf16) = (V c main_v36 : FVec Ideal S128x128 .bf16) := by
  funext y
  show (V c main_v36 : FVec Ideal S128x128 .bf16) (((cfg0.win 6).blk t).view.emb y) = (V c main_v36 : FVec Ideal S128x128 .bf16) y
  congr 1
  funext a; apply Fin.ext
  obtain ⟨-, ⟨h0, h1⟩, -⟩ := idx_weights t
  match a with
  | ⟨0, _⟩ => show win0_6.index t (0 : Fin 2) * 128 + 1 * (y 0).val = (y 0).val; rw [h0]; omega
  | ⟨1, _⟩ => show win0_6.index t (1 : Fin 2) * 128 + 1 * (y 1).val = (y 1).val; rw [h1]; omega

/-- Window 7's block at every point is its whole array. -/
theorem blk7 (c : Dev nD) (t : Fin cfg0.N) :
    (iblk0 (F := Ideal) V c 7 t : Vec Ideal S6x128 .bf16) = (V c main_v38 : FVec Ideal S6x128 .bf16) := by
  funext y
  show (V c main_v38 : FVec Ideal S6x128 .bf16) (((cfg0.win 7).blk t).view.emb y) = (V c main_v38 : FVec Ideal S6x128 .bf16) y
  congr 1
  funext a; apply Fin.ext
  obtain ⟨-, -, ⟨h0, h1⟩, -⟩ := idx_weights t
  match a with
  | ⟨0, _⟩ => show win0_7.index t (0 : Fin 2) * 6 + 1 * (y 0).val = (y 0).val; rw [h0]; omega
  | ⟨1, _⟩ => show win0_7.index t (1 : Fin 2) * 128 + 1 * (y 1).val = (y 1).val; rw [h1]; omega

/-- Window 8's block at every point is its whole array. -/
theorem blk8 (c : Dev nD) (t : Fin cfg0.N) :
    (iblk0 (F := Ideal) V c 8 t : Vec Ideal S1x128 .f32) = (V c main_v39 : FVec Ideal S1x128 .f32) := by
  funext y
  show (V c main_v39 : FVec Ideal S1x128 .f32) (((cfg0.win 8).blk t).view.emb y) = (V c main_v39 : FVec Ideal S1x128 .f32) y
  congr 1
  funext a; apply Fin.ext
  obtain ⟨-, -, -, ⟨h0, h1⟩, -⟩ := idx_weights t
  match a with
  | ⟨0, _⟩ => show win0_8.index t (0 : Fin 2) * 1 + 1 * (y 0).val = (y 0).val; rw [h0]; omega
  | ⟨1, _⟩ => show win0_8.index t (1 : Fin 2) * 128 + 1 * (y 1).val = (y 1).val; rw [h1]; omega

/-- Window 9's block at every point is its whole array. -/
theorem blk9 (c : Dev nD) (t : Fin cfg0.N) :
    (iblk0 (F := Ideal) V c 9 t : Vec Ideal S128 .f32) = (V c main_arg4 : FVec Ideal S128 .f32) := by
  funext y
  show (V c main_arg4 : FVec Ideal S128 .f32) (((cfg0.win 9).blk t).view.emb y) = (V c main_arg4 : FVec Ideal S128 .f32) y
  congr 1
  funext a; apply Fin.ext
  obtain ⟨-, -, -, -, h0, -⟩ := idx_weights t
  match a with
  | ⟨0, _⟩ => show win0_9.index t (0 : Fin 1) * 128 + 1 * (y 0).val = (y 0).val; rw [h0]; omega

/-- Window 10's block at every point is its whole array. -/
theorem blk10 (c : Dev nD) (t : Fin cfg0.N) :
    (iblk0 (F := Ideal) V c 10 t : Vec Ideal S128x128 .bf16) = (V c main_v40 : FVec Ideal S128x128 .bf16) := by
  funext y
  show (V c main_v40 : FVec Ideal S128x128 .bf16) (((cfg0.win 10).blk t).view.emb y) = (V c main_v40 : FVec Ideal S128x128 .bf16) y
  congr 1
  funext a; apply Fin.ext
  obtain ⟨-, -, -, -, -, ⟨h0, h1⟩, -⟩ := idx_weights t
  match a with
  | ⟨0, _⟩ => show win0_10.index t (0 : Fin 2) * 128 + 1 * (y 0).val = (y 0).val; rw [h0]; omega
  | ⟨1, _⟩ => show win0_10.index t (1 : Fin 2) * 128 + 1 * (y 1).val = (y 1).val; rw [h1]; omega

/-- Window 11's block at every point is its whole array. -/
theorem blk11 (c : Dev nD) (t : Fin cfg0.N) :
    (iblk0 (F := Ideal) V c 11 t : Vec Ideal S128 .f32) = (V c main_arg6 : FVec Ideal S128 .f32) := by
  funext y
  show (V c main_arg6 : FVec Ideal S128 .f32) (((cfg0.win 11).blk t).view.emb y) = (V c main_arg6 : FVec Ideal S128 .f32) y
  congr 1
  funext a; apply Fin.ext
  obtain ⟨-, -, -, -, -, -, h0, -⟩ := idx_weights t
  match a with
  | ⟨0, _⟩ => show win0_11.index t (0 : Fin 1) * 128 + 1 * (y 0).val = (y 0).val; rw [h0]; omega

/-- Window 12's block at every point is its whole array. -/
theorem blk12 (c : Dev nD) (t : Fin cfg0.N) :
    (iblk0 (F := Ideal) V c 12 t : Vec Ideal S128x128 .bf16) = (V c main_v41 : FVec Ideal S128x128 .bf16) := by
  funext y
  show (V c main_v41 : FVec Ideal S128x128 .bf16) (((cfg0.win 12).blk t).view.emb y) = (V c main_v41 : FVec Ideal S128x128 .bf16) y
  congr 1
  funext a; apply Fin.ext
  obtain ⟨-, -, -, -, -, -, -, ⟨h0, h1⟩, -⟩ := idx_weights t
  match a with
  | ⟨0, _⟩ => show win0_12.index t (0 : Fin 2) * 128 + 1 * (y 0).val = (y 0).val; rw [h0]; omega
  | ⟨1, _⟩ => show win0_12.index t (1 : Fin 2) * 128 + 1 * (y 1).val = (y 1).val; rw [h1]; omega

/-- Window 13's block at every point is its whole array. -/
theorem blk13 (c : Dev nD) (t : Fin cfg0.N) :
    (iblk0 (F := Ideal) V c 13 t : Vec Ideal S128 .f32) = (V c main_arg12 : FVec Ideal S128 .f32) := by
  funext y
  show (V c main_arg12 : FVec Ideal S128 .f32) (((cfg0.win 13).blk t).view.emb y) = (V c main_arg12 : FVec Ideal S128 .f32) y
  congr 1
  funext a; apply Fin.ext
  obtain ⟨-, -, -, -, -, -, -, -, h0, -⟩ := idx_weights t
  match a with
  | ⟨0, _⟩ => show win0_13.index t (0 : Fin 1) * 128 + 1 * (y 0).val = (y 0).val; rw [h0]; omega

/-- Window 14's block at every point is its whole array. -/
theorem blk14 (c : Dev nD) (t : Fin cfg0.N) :
    (iblk0 (F := Ideal) V c 14 t : Vec Ideal S128x1 .bf16) = (V c main_v42 : FVec Ideal S128x1 .bf16) := by
  funext y
  show (V c main_v42 : FVec Ideal S128x1 .bf16) (((cfg0.win 14).blk t).view.emb y) = (V c main_v42 : FVec Ideal S128x1 .bf16) y
  congr 1
  funext a; apply Fin.ext
  obtain ⟨-, -, -, -, -, -, -, -, -, h0, h1⟩ := idx_weights t
  match a with
  | ⟨0, _⟩ => show win0_14.index t (0 : Fin 2) * 128 + 1 * (y 0).val = (y 0).val; rw [h0]; omega
  | ⟨1, _⟩ => show win0_14.index t (1 : Fin 2) * 1 + 1 * (y 1).val = (y 1).val; rw [h1]; omega

theorem hz2 : (![0, 0] : Fin 2 → Nat) = fun _ => 0 := funext fun a => by fin_cases a <;> rfl
theorem hz1 : (![0] : Fin 1 → Nat) = fun _ => 0 := funext fun a => by fin_cases a; rfl

/-- Two functions of a two-axis index agree when they agree at every pair of coordinates. -/
theorem funext_ix2 {n0 n1 : ℕ} {α : Type} (f g : (⟨2, ![n0, n1]⟩ : Shape).Idx → α) (h : ∀ r q, f (ix2 r q) = g (ix2 r q)) : f = g :=
  funext fun j => by rw [eq_ix2 j]; exact h _ _

/-- The message row computed from point t's blocks at row r is the message row of edge 1600·t + r. -/
theorem msg_blocks (c : Dev nD) (t : Fin cfg0.N) (r : Fin 1600) (e : Fin 800000) (he : e.val = 1600 * t.val + r.val) :
    msg (row (iblk0 (F := Ideal) V c 0 t : Vec Ideal S1600x128 .bf16) r) (row (iblk0 (F := Ideal) V c 1 t : Vec Ideal S1600x128 .bf16) r)
      (row (iblk0 (F := Ideal) V c 2 t : Vec Ideal S1600x6 .f32) r)
      (row (iblk0 (F := Ideal) V c 3 t : Vec Ideal S1600x3 .f32) r) (row (iblk0 (F := Ideal) V c 4 t : Vec Ideal S1600x3 .f32) r)
      (mat (iblk0 (F := Ideal) V c 5 t : Vec Ideal S128x128 .bf16)) (mat (iblk0 (F := Ideal) V c 6 t : Vec Ideal S128x128 .bf16))
      (mat (iblk0 (F := Ideal) V c 7 t : Vec Ideal S6x128 .bf16)) (row (iblk0 (F := Ideal) V c 8 t : Vec Ideal S1x128 .f32) 0)
      (vec (iblk0 (F := Ideal) V c 9 t : Vec Ideal S128 .f32)) (mat (iblk0 (F := Ideal) V c 10 t : Vec Ideal S128x128 .bf16))
      (vec (iblk0 (F := Ideal) V c 11 t : Vec Ideal S128 .f32))
    = msgRow V c e := by
  rw [row_blk0 V c t r e he, row_blk1 V c t r e he, row_blk2 V c t r e he, row_blk3 V c t r e he, row_blk4 V c t r e he,
    blk5 V c t, blk6 V c t, blk7 V c t, blk8 V c t, blk9 V c t, blk10 V c t, blk11 V c t]
  rfl

/-- What point t writes back to the message array is its block of the array of message rows. -/
theorem flushed15_eq (c : Dev nD) (t : Fin cfg0.N) :
    (dat0 (F := Ideal) V c).flushed 15 t
      = ((cfg0.win 15).blk t).view.read (Elt Ideal) ((fun i => msgRow V c (i 0) (i 1)) : FVec Ideal S800000x128 .f32) := by
  show (cfg0.win 15).cut (grid0.coords t) ((dat0 (F := Ideal) V c).after 15 t) = _
  rw [after0_15]
  unfold out0_15
  rw [View.canon_unit_zero hz2]
  simp only [View.ld_unit_zero (S := S1600x128) hz2, View.ld_unit_zero (S := S1600x6) hz2, View.ld_unit_zero (S := S1600x3) hz2,
    View.ld_unit_zero (S := S128x128) hz2, View.ld_unit_zero (S := S6x128) hz2, View.ld_unit_zero (S := S1x128) hz2,
    View.ld_unit_zero (S := S128) hz1]
  refine funext_ix2 (n0 := 1600) (n1 := 128) _ _ fun r q => ?_
  refine (msg_at (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (iblk0 (F := Ideal) V c 10 t) (iblk0 (F := Ideal) V c 11 t) r q).trans ?_
  obtain ⟨-, -, -, -, -, ⟨h0, h1⟩, -⟩ := idx_rows t
  have he : ((((cfg0.win 15).blk t).view.emb (ix2 r q)) 0 : Fin 800000).val = 1600 * t.val + r.val := by
    show win0_15.index t (0 : Fin 2) * 1600 + 1 * r.val = _; rw [h0]; omega
  have hq : ((((cfg0.win 15).blk t).view.emb (ix2 r q)) 1 : Fin 128).val = q.val := by
    show win0_15.index t (1 : Fin 2) * 128 + 1 * q.val = _; rw [h1]; omega
  rw [msg_blocks V c t r _ he]
  exact congrArg (msgRow V c _) (Fin.ext hq).symm

/-- The 500 blocks of 1600 rows tile the message array: row e lies in the block of point e / 1600. -/
theorem cover15 (i : S800000x128.Idx) :
    ∃ t : Fin cfg0.N, (cfg0.win 15).flush t = true ∧ i ∈ ((cfg0.win 15).blk t).view.set := by
  have hi0 : (i 0).val < 800000 := (i 0).isLt
  have hi1 : (i 1).val < 128 := (i 1).isLt
  have hN : cfg0.N = 500 := N_0
  have ht : (i 0).val / 1600 < cfg0.N := by rw [hN]; omega
  refine ⟨⟨(i 0).val / 1600, ht⟩, flush0_15 _, ?_⟩
  show i ∈ ((View.whole main_v43_0).slice (win0_15.rect ⟨(i 0).val / 1600, ht⟩)).set
  rw [View.set_slice_whole, Rect.mem_set_unit]
  obtain ⟨-, -, -, -, -, ⟨h0, h1⟩, -⟩ := idx_rows ⟨(i 0).val / 1600, ht⟩
  intro a
  match a with
  | ⟨0, _⟩ =>
    show win0_15.index ⟨(i 0).val / 1600, ht⟩ (0 : Fin 2) * 1600 ≤ (i 0).val ∧ (i 0).val < win0_15.index ⟨(i 0).val / 1600, ht⟩ (0 : Fin 2) * 1600 + 1600
    rw [h0]; show (i 0).val / 1600 * 1600 ≤ (i 0).val ∧ (i 0).val < (i 0).val / 1600 * 1600 + 1600; omega
  | ⟨1, _⟩ =>
    show win0_15.index ⟨(i 0).val / 1600, ht⟩ (1 : Fin 2) * 128 ≤ (i 1).val ∧ (i 1).val < win0_15.index ⟨(i 0).val / 1600, ht⟩ (1 : Fin 2) * 128 + 128
    rw [h1]; omega

/-- The coordinate update computed from point t's blocks at row r is the coordinate update of edge 1600·t + r. -/
theorem cd_blocks (c : Dev nD) (t : Fin cfg0.N) (r : Fin 1600) (e : Fin 800000) (he : e.val = 1600 * t.val + r.val) :
    coordDiff (coordW (msg (row (iblk0 (F := Ideal) V c 0 t : Vec Ideal S1600x128 .bf16) r) (row (iblk0 (F := Ideal) V c 1 t : Vec Ideal S1600x128 .bf16) r)
          (row (iblk0 (F := Ideal) V c 2 t : Vec Ideal S1600x6 .f32) r)
          (row (iblk0 (F := Ideal) V c 3 t : Vec Ideal S1600x3 .f32) r) (row (iblk0 (F := Ideal) V c 4 t : Vec Ideal S1600x3 .f32) r)
          (mat (iblk0 (F := Ideal) V c 5 t : Vec Ideal S128x128 .bf16)) (mat (iblk0 (F := Ideal) V c 6 t : Vec Ideal S128x128 .bf16))
          (mat (iblk0 (F := Ideal) V c 7 t : Vec Ideal S6x128 .bf16)) (row (iblk0 (F := Ideal) V c 8 t : Vec Ideal S1x128 .f32) 0)
          (vec (iblk0 (F := Ideal) V c 9 t : Vec Ideal S128 .f32)) (mat (iblk0 (F := Ideal) V c 10 t : Vec Ideal S128x128 .bf16))
          (vec (iblk0 (F := Ideal) V c 11 t : Vec Ideal S128 .f32)))
        (mat (iblk0 (F := Ideal) V c 12 t : Vec Ideal S128x128 .bf16)) (vec (iblk0 (F := Ideal) V c 13 t : Vec Ideal S128 .f32))
        (mat (iblk0 (F := Ideal) V c 14 t : Vec Ideal S128x1 .bf16)))
      (row (iblk0 (F := Ideal) V c 3 t : Vec Ideal S1600x3 .f32) r) (row (iblk0 (F := Ideal) V c 4 t : Vec Ideal S1600x3 .f32) r)
      (Ideal.ofBits .f32 0x322BCC77#32)
    = cdRow V c e := by
  rw [msg_blocks V c t r e he, row_blk3 V c t r e he, row_blk4 V c t r e he, blk12 V c t, blk13 V c t, blk14 V c t]
  rfl

/-- What point t writes back to the coordinate array is its block of the array of coordinate updates. -/
theorem flushed16_eq (c : Dev nD) (t : Fin cfg0.N) :
    (dat0 (F := Ideal) V c).flushed 16 t
      = ((cfg0.win 16).blk t).view.read (Elt Ideal) ((fun i => cdRow V c (i 0) (i 1)) : FVec Ideal S800000x3 .f32) := by
  show (cfg0.win 16).cut (grid0.coords t) ((dat0 (F := Ideal) V c).after 16 t) = _
  rw [after0_16]
  unfold out0_16
  rw [View.canon_unit_zero hz2]
  simp only [View.ld_unit_zero (S := S1600x128) hz2, View.ld_unit_zero (S := S1600x6) hz2, View.ld_unit_zero (S := S1600x3) hz2,
    View.ld_unit_zero (S := S128x128) hz2, View.ld_unit_zero (S := S6x128) hz2, View.ld_unit_zero (S := S1x128) hz2,
    View.ld_unit_zero (S := S128) hz1, View.ld_unit_zero (S := S128x1) hz2]
  refine funext_ix2 (n0 := 1600) (n1 := 3) _ _ fun r q => ?_
  refine (cd_at (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) (iblk0 (F := Ideal) V c 6 t) (iblk0 (F := Ideal) V c 7 t) (iblk0 (F := Ideal) V c 8 t) (iblk0 (F := Ideal) V c 9 t) (iblk0 (F := Ideal) V c 10 t) (iblk0 (F := Ideal) V c 11 t) (iblk0 (F := Ideal) V c 12 t) (iblk0 (F := Ideal) V c 13 t) (iblk0 (F := Ideal) V c 14 t) r q).trans ?_
  obtain ⟨-, -, -, -, -, -, h0, h1⟩ := idx_rows t
  have he : ((((cfg0.win 16).blk t).view.emb (ix2 r q)) 0 : Fin 800000).val = 1600 * t.val + r.val := by
    show win0_16.index t (0 : Fin 2) * 1600 + 1 * r.val = _; rw [h0]; omega
  have hq : ((((cfg0.win 16).blk t).view.emb (ix2 r q)) 1 : Fin 3).val = q.val := by
    show win0_16.index t (1 : Fin 2) * 3 + 1 * q.val = _; rw [h1]; omega
  rw [cd_blocks V c t r _ he]
  exact congrArg (cdRow V c _) (Fin.ext hq).symm

/-- The 500 blocks of 1600 rows tile the coordinate array: row e lies in the block of point e / 1600. -/
theorem cover16 (i : S800000x3.Idx) :
    ∃ t : Fin cfg0.N, (cfg0.win 16).flush t = true ∧ i ∈ ((cfg0.win 16).blk t).view.set := by
  have hi0 : (i 0).val < 800000 := (i 0).isLt
  have hi1 : (i 1).val < 3 := (i 1).isLt
  have hN : cfg0.N = 500 := N_0
  have ht : (i 0).val / 1600 < cfg0.N := by rw [hN]; omega
  refine ⟨⟨(i 0).val / 1600, ht⟩, flush0_16 _, ?_⟩
  show i ∈ ((View.whole main_v43_1).slice (win0_16.rect ⟨(i 0).val / 1600, ht⟩)).set
  rw [View.set_slice_whole, Rect.mem_set_unit]
  obtain ⟨-, -, -, -, -, -, h0, h1⟩ := idx_rows ⟨(i 0).val / 1600, ht⟩
  intro a
  match a with
  | ⟨0, _⟩ =>
    show win0_16.index ⟨(i 0).val / 1600, ht⟩ (0 : Fin 2) * 1600 ≤ (i 0).val ∧ (i 0).val < win0_16.index ⟨(i 0).val / 1600, ht⟩ (0 : Fin 2) * 1600 + 1600
    rw [h0]; show (i 0).val / 1600 * 1600 ≤ (i 0).val ∧ (i 0).val < (i 0).val / 1600 * 1600 + 1600; omega
  | ⟨1, _⟩ =>
    show win0_16.index ⟨(i 0).val / 1600, ht⟩ (1 : Fin 2) * 3 ≤ (i 1).val ∧ (i 1).val < win0_16.index ⟨(i 0).val / 1600, ht⟩ (1 : Fin 2) * 3 + 3
    rw [h1]; omega

/-- The message array after the region. -/
theorem arrAt15 (c : Dev nD) :
    ((dat0 (F := Ideal) V c).arrAt 15 cfg0.N : FVec Ideal S800000x128 .f32) = fun i => msgRow V c (i 0) (i 1) := by
  exact (dat0 (F := Ideal) V c).arrAt_eq_of_cover 15 (fun i => msgRow V c (i 0) (i 1)) (fun t _ => flushed15_eq V c t)
    (fun i => cover15 i)

/-- The coordinate-update array after the region. -/
theorem arrAt16 (c : Dev nD) :
    ((dat0 (F := Ideal) V c).arrAt 16 cfg0.N : FVec Ideal S800000x3 .f32) = fun i => cdRow V c (i 0) (i 1) := by
  exact (dat0 (F := Ideal) V c).arrAt_eq_of_cover 16 (fun i => cdRow V c (i 0) (i 1)) (fun t _ => flushed16_eq V c t)
    (fun i => cover16 i)

end Cert.KernelIdeal.EdgeArrays

end
-- ==== Proof.NodePayload.lean ====
/-
  The node kernel's stored value, read at one entry: entry (r, j) of the block a grid point writes is the node update of
  Spec (`Egnn.node`) of row r of the point's feature block and of its summed-message block and of the whole weight
  blocks.  The three matrix products have zero accumulators and one contracted axis each, so each is the plain sum
  `Egnn.lin` at an entry; a change of float format is the identity.
-/
import proofs.«153590_j30829275251278_1_alg».proof.Proof.Gen.KernelIdeal.Skeleton
import proofs.«153590_j30829275251278_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodePayload

open Idealize.ShloMosaic Idealize.ShloMosaic.ValueIdx Cert.KernelIdeal Cert.KernelIdeal.Gen Cert.Egnn

/-- The left operand's row coordinate is the output's row coordinate. -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The left operand's column coordinate is the contracted coordinate. -/
theorem lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's row coordinate is the contracted coordinate. -/
theorem rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- The right operand's column coordinate is the output's column coordinate. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A 1000 × 128 by 128 × 128 product into a zero accumulator, at entry (r, j): row r of the left operand times the
    right operand, at column j. -/
theorem matmul_lin (v : FVec Ideal S1000x128 .bf16) (w : FVec Ideal S128x128 .bf16) (r : Fin 1000) (j : Fin 128) :
    matmul dot_S1000x128_S128x128_S1000x128_1_0_0_1_n_n none v w (constant (F := Ideal) S1000x128 .f32 0x00000000#32) (ix2 r j)
      = lin (row v r) (mat w) j := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r j) ((contrEquiv1 dot_S1000x128_S128x128_S1000x128_1_0_0_1_n_n 128 rfl rfl).symm k) = ix2 r k := funext fun a => Fin.ext (by
    match a with
    | ⟨0, _⟩ => exact lhs_0 _ _
    | ⟨1, _⟩ => exact (lhs_1 _ _).trans hk)
  have er : dot_S1000x128_S128x128_S1000x128_1_0_0_1_n_n.rhsIdx (ix2 r j) ((contrEquiv1 dot_S1000x128_S128x128_S1000x128_1_0_0_1_n_n 128 rfl rfl).symm k) = ix2 k j := funext fun a => Fin.ext (by
    match a with
    | ⟨0, _⟩ => exact (rhs_0 _ _).trans hk
    | ⟨1, _⟩ => exact rhs_1 _ _)
  rw [el, er]
  rfl

/-- The logistic function of an array, at an index. -/
theorem logistic_at {s : Shape} {φ : FTy} (x : FVec Ideal s φ) (i : s.Idx) : logistic x i = Ideal.logistic (x i) := rfl

/-- The node block at entry (r, j). -/
theorem pay1_apply (v0 v1 : Vec Ideal S1000x128 .f32) (v3 v6 : Vec Ideal S128x128 .f32) (v9 : Vec Ideal S128 .f32)
    (v20 : Vec Ideal S128x128 .f32) (v22 : Vec Ideal S128 .f32) (r : Fin 1000) (j : Fin 128) :
    k1_pay1 (F := Ideal) v0 v1 v3 v6 v9 v20 v22 (ix2 r j)
      = node (row v0 r) (row v1 r) (mat v3) (mat v6) (vec v9) (mat v20) (vec v22) j := by
  unfold k1_pay1 node
  simp only [shapeCast_self, addf_apply, matmul_lin, broadcastTo_1b_ab_apply, shapeCast_a_1a_apply]
  refine congrArg (fun x => v0 (ix2 r j) + (lin x (mat v20) j + v22 (ix1 j))) (funext fun k => ?_)
  simp only [row, truncf_apply, mulf_apply, logistic_at, addf_apply, matmul_lin, broadcastTo_1b_ab_apply,
    shapeCast_a_1a_apply, vec, silu]
  rfl

end Cert.KernelIdeal.NodePayload

end
-- ==== Proof.NodeArray.lean ====
/-
  The node region's output array after the region, as a whole array, for any contents `V` the region is entered at.
  Grid point t writes rows 1000·t … 1000·t + 999; row r of its block is the node update of row 1000·t + r of the feature
  array and of the summed-message array.  The 50 blocks tile the 50000 rows.
-/
import proofs.«153590_j30829275251278_1_alg».proof.Proof.Patched.KernelIdeal.Frame
import proofs.«153590_j30829275251278_1_alg».proof.Proof.NodePayload
import proofs.«153590_j30829275251278_1_alg».proof.Proof.Spec
import Idealize.ShloMosaic.Lib.Pipeline.Value
import Idealize.ShloMosaic.Lib.ValueIdx

set_option maxRecDepth 16384

noncomputable section

namespace Cert.KernelIdeal.NodeArray

open Idealize.ShloMosaic Idealize.ShloMosaic.TcCoe Idealize.ShloMosaic.ValueIdx Idealize.SL.Sem
open Cert.KernelIdeal Cert.KernelIdeal.Gen Cert.KernelIdeal.GenP Cert.Egnn

variable (V : (c : Dev nD) → (b : Ref sig .tc) → Buf (Elt Ideal) ((c : Thread nD τ).loc b))

/-- The updated feature row of node `n`, from the arrays as the region finds them. -/
def nodeRow (c : Dev nD) (n : Fin 50000) : Fin 128 → EReal :=
  node (row (V c main_arg0 : FVec Ideal S50000x128 .f32) n) (row (V c main_v46 : FVec Ideal S50000x128 .f32) n)
    (mat (V c main_v51 : FVec Ideal S128x128 .f32)) (mat (V c main_v52 : FVec Ideal S128x128 .f32))
    (vec (V c main_arg8 : FVec Ideal S128 .f32)) (mat (V c main_arg9 : FVec Ideal S128x128 .f32))
    (vec (V c main_arg10 : FVec Ideal S128 .f32))

/-- The zero offsets of a two-axis load or store, as a constant function. -/
theorem zero2 : (![0, 0] : Fin 2 → Nat) = fun _ => 0 := funext fun a => by fin_cases a <;> rfl
/-- The zero offset of a one-axis load, as a constant function. -/
theorem zero1 : (![0] : Fin 1 → Nat) = fun _ => 0 := funext fun a => by fin_cases a <;> rfl

/-- The index maps over the 50 grid points: the two row-block inputs and the output sit at block row t, every weight
    and bias input at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row p of point t's feature block is row 1000 t + p of the feature array. -/
theorem row_blk0 (c : Dev nD) (t : Fin cfg1.N) (p : Fin 1000) (n : Fin 50000) (hn : n.val = 1000 * t.val + p.val) :
    row (iblk1 V c 0 t : Vec Ideal S1000x128 .f32) p = row (V c main_arg0 : FVec Ideal S50000x128 .f32) n := by
  obtain ⟨e0, e1, -⟩ := idx_facts t
  funext k
  show V c main_arg0 (((cfg1.win 0).blk t).view.emb (ix2 p k)) = V c main_arg0 (ix2 n k)
  refine congrArg _ (funext fun a => Fin.ext ?_)
  match a with
  | ⟨0, _⟩ => show win1_0.index t (0 : Fin 2) * 1000 + 1 * p.val = n.val; omega
  | ⟨1, _⟩ => show win1_0.index t (1 : Fin 2) * 128 + 1 * k.val = k.val; omega

/-- Row p of point t's summed-message block is row 1000 t + p of the summed-message array. -/
theorem row_blk1 (c : Dev nD) (t : Fin cfg1.N) (p : Fin 1000) (n : Fin 50000) (hn : n.val = 1000 * t.val + p.val) :
    row (iblk1 V c 1 t : Vec Ideal S1000x128 .f32) p = row (V c main_v46 : FVec Ideal S50000x128 .f32) n := by
  obtain ⟨-, -, e0, e1, -⟩ := idx_facts t
  funext k
  show V c main_v46 (((cfg1.win 1).blk t).view.emb (ix2 p k)) = V c main_v46 (ix2 n k)
  refine congrArg _ (funext fun a => Fin.ext ?_)
  match a with
  | ⟨0, _⟩ => show win1_1.index t (0 : Fin 2) * 1000 + 1 * p.val = n.val; omega
  | ⟨1, _⟩ => show win1_1.index t (1 : Fin 2) * 128 + 1 * k.val = k.val; omega

/-- Every point stages the first weight matrix whole. -/
theorem mat_blk2 (c : Dev nD) (t : Fin cfg1.N) :
    mat (iblk1 V c 2 t : Vec Ideal S128x128 .f32) = mat (V c main_v51 : FVec Ideal S128x128 .f32) := by
  obtain ⟨-, -, -, -, e0, e1, -⟩ := idx_facts t
  funext k j
  show V c main_v51 (((cfg1.win 2).blk t).view.emb (ix2 k j)) = V c main_v51 (ix2 k j)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- Every point stages the second weight matrix whole. -/
theorem mat_blk3 (c : Dev nD) (t : Fin cfg1.N) :
    mat (iblk1 V c 3 t : Vec Ideal S128x128 .f32) = mat (V c main_v52 : FVec Ideal S128x128 .f32) := by
  obtain ⟨-, -, -, -, -, -, e0, e1, -⟩ := idx_facts t
  funext k j
  show V c main_v52 (((cfg1.win 3).blk t).view.emb (ix2 k j)) = V c main_v52 (ix2 k j)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-- Every point stages the first bias whole. -/
theorem vec_blk4 (c : Dev nD) (t : Fin cfg1.N) :
    vec (iblk1 V c 4 t : Vec Ideal S128 .f32) = vec (V c main_arg8 : FVec Ideal S128 .f32) := by
  obtain ⟨-, -, -, -, -, -, -, -, e0, -⟩ := idx_facts t
  funext k
  show V c main_arg8 (((cfg1.win 4).blk t).view.emb (ix1 k)) = V c main_arg8 (ix1 k)
  refine congrArg _ (funext fun a => Fin.ext ?_)
  match a with
  | ⟨0, _⟩ => show win1_4.index t (0 : Fin 1) * 128 + 1 * k.val = k.val; omega

/-- Every point stages the third weight matrix whole. -/
theorem mat_blk5 (c : Dev nD) (t : Fin cfg1.N) :
    mat (iblk1 V c 5 t : Vec Ideal S128x128 .f32) = mat (V c main_arg9 : FVec Ideal S128x128 .f32) := by
  obtain ⟨-, -, -, -, -, -, -, -, -, e0, e1, -⟩ := idx_facts t
  funext k j
  show V c main_arg9 (((cfg1.win 5).blk t).view.emb (ix2 k j)) = V c main_arg9 (ix2 k j)
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * j.val = j.val; omega

/-- Every point stages the second bias whole. -/
theorem vec_blk6 (c : Dev nD) (t : Fin cfg1.N) :
    vec (iblk1 V c 6 t : Vec Ideal S128 .f32) = vec (V c main_arg10 : FVec Ideal S128 .f32) := by
  obtain ⟨-, -, -, -, -, -, -, -, -, -, -, e0, -⟩ := idx_facts t
  funext k
  show V c main_arg10 (((cfg1.win 6).blk t).view.emb (ix1 k)) = V c main_arg10 (ix1 k)
  refine congrArg _ (funext fun a => Fin.ext ?_)
  match a with
  | ⟨0, _⟩ => show win1_6.index t (0 : Fin 1) * 128 + 1 * k.val = k.val; omega

/-- The array of updated feature rows. -/
abbrev nodeArr (c : Dev nD) : FVec Ideal S50000x128 .f32 := fun i => nodeRow V c (i 0) (i 1)

/-- What point t writes back is block t of the array of updated feature rows. -/
theorem flushed7_eq (c : Dev nD) (t : Fin cfg1.N) :
    (dat1 (F := Ideal) V c).flushed 7 t = ((cfg1.win 7).blk t).view.read (Elt Ideal) (nodeArr V c) := by
  show (cfg1.win 7).cut (grid1.coords t) ((dat1 (F := Ideal) V c).after 7 t) = _
  rw [after1_7]
  unfold out1_7
  rw [View.canon_unit_zero zero2]
  simp only [View.ld_unit_zero (S := S1000x128) zero2, View.ld_unit_zero (S := S128x128) zero2,
    View.ld_unit_zero (S := S128) zero1]
  have ht : t.val < 50 := t.isLt
  obtain ⟨-, -, -, -, -, -, -, -, -, -, -, -, e0, e1⟩ := idx_facts t
  funext y
  obtain ⟨p, q, rfl⟩ : ∃ (p : Fin 1000) (q : Fin 128), y = ix2 p q := ⟨y 0, y 1, eq_ix2 y⟩
  have hp : p.val < 1000 := p.isLt
  show k1_pay1 (F := Ideal) (iblk1 V c 0 t) (iblk1 V c 1 t) (iblk1 V c 2 t) (iblk1 V c 3 t) (iblk1 V c 4 t)
      (iblk1 V c 5 t) (iblk1 V c 6 t) (ix2 p q)
    = nodeRow V c (((cfg1.win 7).blk t).view.emb (ix2 p q) 0) (((cfg1.win 7).blk t).view.emb (ix2 p q) 1)
  rw [NodePayload.pay1_apply, row_blk0 V c t p ⟨1000 * t.val + p.val, by omega⟩ rfl,
    row_blk1 V c t p ⟨1000 * t.val + p.val, by omega⟩ rfl, mat_blk2, mat_blk3, vec_blk4, mat_blk5, vec_blk6]
  have h0 : ((cfg1.win 7).blk t).view.emb (ix2 p q) 0 = (⟨1000 * t.val + p.val, by omega⟩ : Fin 50000) :=
    Fin.ext (by show win1_7.index t (0 : Fin 2) * 1000 + 1 * p.val = 1000 * t.val + p.val; omega)
  have h1 : ((cfg1.win 7).blk t).view.emb (ix2 p q) 1 = q :=
    Fin.ext (by show win1_7.index t (1 : Fin 2) * 128 + 1 * q.val = q.val; omega)
  rw [h0, h1]
  rfl

/-- An index of the array is in point t's block iff each coordinate is in the block's range on its axis. -/
theorem mem_blk7 (t : Fin cfg1.N) (i : S50000x128.Idx) :
    i ∈ ((cfg1.win 7).blk t).view.set ↔ ∀ a : Fin 2, win1_7.index t a * S1000x128.size a ≤ (i a).val
      ∧ (i a).val < win1_7.index t a * S1000x128.size a + S1000x128.size a := by
  show i ∈ ((View.whole main_v53).slice (win1_7.rect t)).set ↔ _
  rw [View.set_slice_whole, Rect.mem_set_unit]
  exact Iff.rfl

/-- The 50 blocks of 1000 rows tile the 50000 rows: row n is in the block of point n / 1000. -/
theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, -, -, -, -, -, -, e0, e1⟩ := idx_facts t
  refine ⟨t, flush1_7 t, ?_⟩
  rw [mem_blk7]
  intro a
  match a with
  | ⟨0, _⟩ =>
    show win1_7.index t (0 : Fin 2) * 1000 ≤ (i 0).val ∧ (i 0).val < win1_7.index t (0 : Fin 2) * 1000 + 1000
    omega
  | ⟨1, _⟩ =>
    show win1_7.index t (1 : Fin 2) * 128 ≤ (i 1).val ∧ (i 1).val < win1_7.index t (1 : Fin 2) * 128 + 128
    omega

/-- The new feature array after the region. -/
theorem arrAt7 (c : Dev nD) :
    ((dat1 (F := Ideal) V c).arrAt 7 cfg1.N : FVec Ideal S50000x128 .f32) = fun i => nodeRow V c (i 0) (i 1) := by
  exact (dat1 (F := Ideal) V c).arrAt_eq_of_cover 7 (nodeArr V c) (fun t _ => flushed7_eq V c t) cover7

end Cert.KernelIdeal.NodeArray

end
-- ==== Proof.RefEdge.lean ====
/-
  The reference's edge stages read at one entry, in the terms of Spec.  Its first dense layer multiplies the
  concatenated row (h[row], h[col], edge_attr, dist) of width 263 by the whole first weight matrix; regrouped over the
  matrix's four row bands (`Egnn.lin_cat263`) this is the sum of four partial products.  The activation is the outlined
  x · (1 / (1 + exp (-x))), which is x · logistic x on the extended reals by definition; the norm is the square root of
  the three-term sum of squares (the host sum's initial value is zero).
-/
import proofs.«153590_j30829275251278_1_alg».proof.Proof.Gen.ReferenceIdeal.Read
import proofs.«153590_j30829275251278_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefEdge

open Idealize.ShloMosaic Idealize.ShloMosaic.ValueIdx Cert.ReferenceIdeal Cert.ReferenceIdeal.Read Cert.Egnn

/-- The norm stage at row e: the length of the difference of the two gathered position rows (the sum of the three
    squares starts from the zero word). -/
theorem v19_at (x1 : FVec Ideal S50000x3 .f32) (x14 : IVec S2x800000 32) (e : Fin 800000) :
    val_main_v19 (F := Ideal) x1 x14 (ix2 e (0 : Fin 1))
      = dist (row (val_main_v10 (F := Ideal) x1 x14) e) (row (val_main_v17 (F := Ideal) x1 x14) e) := by
  have hi : ∀ k : Fin 3, idx_main_call0_v1 (idx_main_call0_v2 (ix2 e (0 : Fin 1))) k = ix2 e k := fun k =>
    funext fun a => Fin.ext (by match a with | ⟨0, _⟩ => rfl | ⟨1, _⟩ => rfl)
  rw [val_main_v19_apply, val_main_call0_v2_apply, val_main_call0_v1_apply]
  simp only [hi, val_main_call0_v0_apply, val_main_v18_apply, val_main_call0_cst_apply, Ideal.hostUnary_sqrt_def,
    Ideal.mulf_def, Ideal.subf_def, Ideal.ofBits_def, Ideal.ofBits_zero_f32, zero_add]
  rfl

/-- The concatenated row at a column of its first band is the first gathered feature row. -/
theorem v34_band0 (x0 : FVec Ideal S50000x128 .f32) (x1 : FVec Ideal S50000x3 .f32) (x2 : FVec Ideal S800000x6 .f32)
    (x14 : IVec S2x800000 32) (e : Fin 800000) (k : Fin 128) :
    val_main_v34 (F := Ideal) x0 x1 x2 x14 (ix2 e (⟨k.val, by have := k.isLt; omega⟩ : Fin 263))
      = val_main_v26 (F := Ideal) x0 x14 (ix2 e k) := by
  unfold val_main_v34
  exact concatenate_apply_piece (1 : Fin S800000x263.rank) _ _ _ 0 (by show (0 : ℕ) < 4; omega) S800000x128 _ rfl rfl 0 rfl (ix2 e k)
    (fun b hb => by match b with | ⟨0, _⟩ => rfl | ⟨1, _⟩ => exact absurd rfl hb) (Nat.zero_add _)

/-- The concatenated row at a column of its second band is the second gathered feature row. -/
theorem v34_band1 (x0 : FVec Ideal S50000x128 .f32) (x1 : FVec Ideal S50000x3 .f32) (x2 : FVec Ideal S800000x6 .f32)
    (x14 : IVec S2x800000 32) (e : Fin 800000) (k : Fin 128) :
    val_main_v34 (F := Ideal) x0 x1 x2 x14 (ix2 e (⟨128 + k.val, by have := k.isLt; omega⟩ : Fin 263))
      = val_main_v33 (F := Ideal) x0 x14 (ix2 e k) := by
  unfold val_main_v34
  exact concatenate_apply_piece (1 : Fin S800000x263.rank) _ _ _ 1 (by show (1 : ℕ) < 4; omega) S800000x128 _ rfl rfl 128 rfl
    (ix2 e k) (fun b hb => by match b with | ⟨0, _⟩ => rfl | ⟨1, _⟩ => exact absurd rfl hb) rfl

/-- The concatenated row at a column of its third band is the edge's attribute row. -/
theorem v34_band2 (x0 : FVec Ideal S50000x128 .f32) (x1 : FVec Ideal S50000x3 .f32) (x2 : FVec Ideal S800000x6 .f32)
    (x14 : IVec S2x800000 32) (e : Fin 800000) (k : Fin 6) :
    val_main_v34 (F := Ideal) x0 x1 x2 x14 (ix2 e (⟨256 + k.val, by have := k.isLt; omega⟩ : Fin 263))
      = x2 (ix2 e k) := by
  unfold val_main_v34
  exact concatenate_apply_piece (1 : Fin S800000x263.rank) _ _ _ 2 (by show (2 : ℕ) < 4; omega) S800000x6 _ rfl rfl 256 rfl
    (ix2 e k) (fun b hb => by match b with | ⟨0, _⟩ => rfl | ⟨1, _⟩ => exact absurd rfl hb) rfl

/-- The concatenated row at its last column is the norm stage. -/
theorem v34_last (x0 : FVec Ideal S50000x128 .f32) (x1 : FVec Ideal S50000x3 .f32) (x2 : FVec Ideal S800000x6 .f32)
    (x14 : IVec S2x800000 32) (e : Fin 800000) :
    val_main_v34 (F := Ideal) x0 x1 x2 x14 (ix2 e (⟨262, by omega⟩ : Fin 263))
      = val_main_v19 (F := Ideal) x1 x14 (ix2 e (0 : Fin 1)) := by
  unfold val_main_v34
  exact concatenate_apply_piece (1 : Fin S800000x263.rank) _ _ _ 3 (by show (3 : ℕ) < 4; omega) S800000x1 _ rfl rfl 262 rfl
    (ix2 e (0 : Fin 1)) (fun b hb => by match b with | ⟨0, _⟩ => rfl | ⟨1, _⟩ => exact absurd rfl hb) rfl

/-- The first dense layer before its activation, at entry (e, j): the 263-term product regrouped over the four bands. -/
theorem v38_at (x0 : FVec Ideal S50000x128 .f32) (x1 : FVec Ideal S50000x3 .f32) (x2 : FVec Ideal S800000x6 .f32)
    (x3 : FVec Ideal S263x128 .f32) (x4 : FVec Ideal S128 .f32) (x14 : IVec S2x800000 32) (e : Fin 800000) (j : Fin 128) :
    val_main_v38 (F := Ideal) x0 x1 x2 x3 x4 x14 (ix2 e j)
      = pre1 (row (val_main_v26 (F := Ideal) x0 x14) e) (row (val_main_v33 (F := Ideal) x0 x14) e) (row x2 e)
          (dist (row (val_main_v10 (F := Ideal) x1 x14) e) (row (val_main_v17 (F := Ideal) x1 x14) e))
          (band 128 0 (by omega) (mat x3)) (band 128 128 (by omega) (mat x3)) (band 6 256 (by omega) (mat x3))
          (fun q => mat x3 ⟨262, by omega⟩ q) (vec x4) j := by
  have hl : ∀ k : Fin 263, lidx_main_v35 (ix2 e j) k = ix2 e k := fun k =>
    funext fun a => Fin.ext (by match a with | ⟨0, _⟩ => rfl | ⟨1, _⟩ => rfl)
  have hr : ∀ k : Fin 263, ridx_main_v35 (ix2 e j) k = ix2 k j := fun k =>
    funext fun a => Fin.ext (by match a with | ⟨0, _⟩ => rfl | ⟨1, _⟩ => rfl)
  have hb : idx_main_v36 (idx_main_v37 (ix2 e j)) = ix1 j :=
    funext fun a => Fin.ext (by match a with | ⟨0, _⟩ => rfl)
  rw [val_main_v38_apply, val_main_v35_apply, val_main_v37_apply, val_main_v36_apply, hb]
  simp only [hl, hr, Ideal.addf_def]
  unfold pre1
  refine congrArg₂ (· + ·) ?_ rfl
  exact lin_cat263 (row (val_main_v26 (F := Ideal) x0 x14) e) (row (val_main_v33 (F := Ideal) x0 x14) e) (row x2 e)
    (dist (row (val_main_v10 (F := Ideal) x1 x14) e) (row (val_main_v17 (F := Ideal) x1 x14) e)) (mat x3)
    (fun k => val_main_v34 (F := Ideal) x0 x1 x2 x14 (ix2 e k))
    (fun k => v34_band0 x0 x1 x2 x14 e k) (fun k => v34_band1 x0 x1 x2 x14 e k) (fun k => v34_band2 x0 x1 x2 x14 e k)
    ((v34_last x0 x1 x2 x14 e).trans (v19_at x1 x14 e)) j

/-- The outlined activation x · (1 / (1 + exp (-x))), with the word of one, is x · logistic x. -/
theorem silu_word (x : EReal) :
    x * Ideal.div (Ideal.ofBits .f32 0x3F800000#32) (Ideal.ofBits .f32 0x3F800000#32 + Ideal.exp (-x)) = silu x := by
  rw [Ideal.ofBits_one_f32]
  rfl

/-- The first dense layer after its activation, at entry (e, j). -/
theorem v39_at (x0 : FVec Ideal S50000x128 .f32) (x1 : FVec Ideal S50000x3 .f32) (x2 : FVec Ideal S800000x6 .f32)
    (x3 : FVec Ideal S263x128 .f32) (x4 : FVec Ideal S128 .f32) (x14 : IVec S2x800000 32) (e : Fin 800000) (j : Fin 128) :
    val_main_v39 (F := Ideal) x0 x1 x2 x3 x4 x14 (ix2 e j)
      = silu (pre1 (row (val_main_v26 (F := Ideal) x0 x14) e) (row (val_main_v33 (F := Ideal) x0 x14) e) (row x2 e)
          (dist (row (val_main_v10 (F := Ideal) x1 x14) e) (row (val_main_v17 (F := Ideal) x1 x14) e))
          (band 128 0 (by omega) (mat x3)) (band 128 128 (by omega) (mat x3)) (band 6 256 (by omega) (mat x3))
          (fun q => mat x3 ⟨262, by omega⟩ q) (vec x4) j) := by
  rw [val_main_v39_apply, val_main_call1_v5_apply, val_main_call1_v4_apply, val_main_call1_cst_0_apply,
    val_main_call1_v3_apply, val_main_call1_v2_apply, val_main_call1_cst_apply, val_main_call1_v1_apply,
    val_main_call1_v0_apply, v38_at]
  simp only [Ideal.mulf_def, Ideal.hostDivf_def, Ideal.addf_def, Ideal.hostUnary_exp_def, Ideal.hostNegf_def, Ideal.negf_def,
    Ideal.ofBits_def]
  exact silu_word _

/-- The message array at entry (e, j): the message row of edge e's gathered rows. -/
theorem v44_apply (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x14 : IVec S2x800000 32) (e : Fin 800000) (j : Fin 128) :
    val_main_v44 (F := Ideal) x0 x1 x2 x3 x4 x5 x6 x14 (ix2 e j)
      = msg (row (val_main_v26 (F := Ideal) x0 x14) e) (row (val_main_v33 (F := Ideal) x0 x14) e) (row x2 e)
          (row (val_main_v10 (F := Ideal) x1 x14) e) (row (val_main_v17 (F := Ideal) x1 x14) e)
          (band 128 0 (by omega) (mat x3)) (band 128 128 (by omega) (mat x3)) (band 6 256 (by omega) (mat x3))
          (fun q => mat x3 ⟨262, by omega⟩ q) (vec x4) (mat x5) (vec x6) j := by
  have hl : ∀ k : Fin 128, lidx_main_v40 (ix2 e j) k = ix2 e k := fun k =>
    funext fun a => Fin.ext (by match a with | ⟨0, _⟩ => rfl | ⟨1, _⟩ => rfl)
  have hr : ∀ k : Fin 128, ridx_main_v40 (ix2 e j) k = ix2 k j := fun k =>
    funext fun a => Fin.ext (by match a with | ⟨0, _⟩ => rfl | ⟨1, _⟩ => rfl)
  have hb : idx_main_v41 (idx_main_v42 (ix2 e j)) = ix1 j :=
    funext fun a => Fin.ext (by match a with | ⟨0, _⟩ => rfl)
  rw [val_main_v44_apply, val_main_call2_v5_apply, val_main_call2_v4_apply, val_main_call2_cst_0_apply,
    val_main_call2_v3_apply, val_main_call2_v2_apply, val_main_call2_cst_apply, val_main_call2_v1_apply,
    val_main_call2_v0_apply, val_main_v43_apply, val_main_v40_apply, val_main_v42_apply, val_main_v41_apply, hb]
  simp only [hl, hr, v39_at, Ideal.mulf_def, Ideal.hostDivf_def, Ideal.addf_def, Ideal.hostUnary_exp_def, Ideal.hostNegf_def,
    Ideal.negf_def, Ideal.ofBits_def]
  exact silu_word _

end Cert.ReferenceIdeal.RefEdge

end
-- ==== Proof.RefEdge2.lean ====
/-
  The reference's coordinate stage read at one entry, in the terms of Spec: two more dense layers on the message row
  give the edge's scalar weight (`Egnn.coordW`); it multiplies the relative position and the product is divided by the
  distance plus the constant (`Egnn.coordDiff`).  The message array stays unopened.
-/
import proofs.«153590_j30829275251278_1_alg».proof.Proof.Gen.ReferenceIdeal.Read
import proofs.«153590_j30829275251278_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefEdge

open Idealize.ShloMosaic Idealize.ShloMosaic.ValueIdx Cert.ReferenceIdeal Cert.ReferenceIdeal.Read Cert.Egnn

/-! The index maps of the stages, at an entry given by its coordinates. -/

/-- The first coordinate layer's product reads the message array's row e at the summation position. -/
theorem coord_lidx59 (e : Fin 800000) (j q : Fin 128) : lidx_main_v59 (ix2 e j) q = ix2 e q :=
  funext fun a => Fin.ext (by match a with | ⟨0, _⟩ => rfl | ⟨1, _⟩ => rfl)
/-- … and the weight matrix at (summation position, column). -/
theorem coord_ridx59 (e : Fin 800000) (j q : Fin 128) : ridx_main_v59 (ix2 e j) q = ix2 q j :=
  funext fun a => Fin.ext (by match a with | ⟨0, _⟩ => rfl | ⟨1, _⟩ => rfl)
/-- The bias, broadcast over the edges, is read at the column. -/
theorem coord_idx61 (e : Fin 800000) (j : Fin 128) : idx_main_v60 (idx_main_v61 (ix2 e j)) = ix1 j :=
  funext fun a => Fin.ext (by match a with | ⟨0, _⟩ => rfl)
/-- The second coordinate layer's product reads the activated row e at the summation position. -/
theorem coord_lidx64 (e : Fin 800000) (z : Fin 1) (j : Fin 128) : lidx_main_v64 (ix2 e z) j = ix2 e j :=
  funext fun a => Fin.ext (by match a with | ⟨0, _⟩ => rfl | ⟨1, _⟩ => rfl)
/-- … and the one-column weight matrix at the summation position. -/
theorem coord_ridx64 (e : Fin 800000) (z : Fin 1) (j : Fin 128) : ridx_main_v64 (ix2 e z) j = ix2 j z :=
  funext fun a => Fin.ext (by match a with | ⟨0, _⟩ => rfl | ⟨1, _⟩ => rfl)
/-- The edge's scalar weight, broadcast over the three coordinates, is read at (e, 0). -/
theorem coord_idx65 (e : Fin 800000) (k : Fin 3) : idx_main_v65 (ix2 e k) = ix2 e (0 : Fin 1) :=
  funext fun a => Fin.ext (by match a with | ⟨0, _⟩ => rfl | ⟨1, _⟩ => rfl)
/-- The denominator, broadcast over the three coordinates, is read at (e, 0). -/
theorem coord_idx69 (e : Fin 800000) (k : Fin 3) : idx_main_v69 (ix2 e k) = ix2 e (0 : Fin 1) :=
  funext fun a => Fin.ext (by match a with | ⟨0, _⟩ => rfl | ⟨1, _⟩ => rfl)
/-- The sum of squares of edge e runs over the three entries of row e. -/
theorem coord_idxnorm (e : Fin 800000) (z : Fin 1) (k : Fin 3) :
    idx_main_call0_v1 (idx_main_call0_v2 (ix2 e z)) k = ix2 e k :=
  funext fun a => Fin.ext (by match a with | ⟨0, _⟩ => rfl | ⟨1, _⟩ => rfl)

/-! The stages, one at a time. -/

/-- The first coordinate layer before its activation: the message row times the weight matrix, plus the bias. -/
theorem coord_v62 (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x11 : FVec Ideal S128x128 .f32) (x12 : FVec Ideal S128 .f32) (x14 : IVec S2x800000 32) (e : Fin 800000) (j : Fin 128) :
    val_main_v62 (F := Ideal) x0 x1 x2 x3 x4 x5 x6 x11 x12 x14 (ix2 e j)
      = lin (row (val_main_v44 (F := Ideal) x0 x1 x2 x3 x4 x5 x6 x14) e) (mat x11) j + vec x12 j := by
  rw [val_main_v62_apply, val_main_v59_apply, val_main_v61_apply, val_main_v60_apply]
  simp only [coord_lidx59, coord_ridx59, coord_idx61, Ideal.addf_def]
  rfl

/-- After the activation x · (1 / (1 + exp (-x))), which is x · logistic x by definition (the word of 1 is 1). -/
theorem coord_v63 (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x11 : FVec Ideal S128x128 .f32) (x12 : FVec Ideal S128 .f32) (x14 : IVec S2x800000 32) (e : Fin 800000) (j : Fin 128) :
    val_main_v63 (F := Ideal) x0 x1 x2 x3 x4 x5 x6 x11 x12 x14 (ix2 e j)
      = dense (row (val_main_v44 (F := Ideal) x0 x1 x2 x3 x4 x5 x6 x14) e) (mat x11) (vec x12) j := by
  rw [val_main_v63_apply, val_main_call4_v5_apply, val_main_call4_v4_apply, val_main_call4_cst_0_apply,
    val_main_call4_v3_apply, val_main_call4_v2_apply, val_main_call4_cst_apply, val_main_call4_v1_apply,
    val_main_call4_v0_apply, coord_v62]
  simp only [Ideal.mulf_def, Ideal.hostDivf_def, Ideal.addf_def, Ideal.hostUnary_exp_def, Ideal.hostNegf_def, Ideal.negf_def,
    Ideal.ofBits_def, Ideal.ofBits_one_f32]
  rfl

/-- The edge's scalar weight: the activated row times the one-column matrix. -/
theorem coord_v64 (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x11 : FVec Ideal S128x128 .f32) (x12 : FVec Ideal S128 .f32) (x13 : FVec Ideal S128x1 .f32) (x14 : IVec S2x800000 32)
    (e : Fin 800000) :
    val_main_v64 (F := Ideal) x0 x1 x2 x3 x4 x5 x6 x11 x12 x13 x14 (ix2 e (0 : Fin 1))
      = coordW (row (val_main_v44 (F := Ideal) x0 x1 x2 x3 x4 x5 x6 x14) e) (mat x11) (vec x12) (mat x13) := by
  rw [val_main_v64_apply]
  simp only [coord_lidx64, coord_ridx64, coord_v63]
  rfl

/-- The distance of edge e's end points: the square root of the three-term sum of squares (the sum starts from the
    word of zero, which is zero). -/
theorem coord_v19 (x1 : FVec Ideal S50000x3 .f32) (x14 : IVec S2x800000 32) (e : Fin 800000) :
    val_main_v19 (F := Ideal) x1 x14 (ix2 e (0 : Fin 1))
      = dist (row (val_main_v10 (F := Ideal) x1 x14) e) (row (val_main_v17 (F := Ideal) x1 x14) e) := by
  rw [val_main_v19_apply, val_main_call0_v2_apply, val_main_call0_v1_apply, val_main_call0_cst_apply]
  simp only [coord_idxnorm, val_main_call0_v0_apply, val_main_v18_apply, Ideal.hostUnary_sqrt_def, Ideal.mulf_def, Ideal.subf_def,
    Ideal.ofBits_def, Ideal.ofBits_zero_f32, zero_add]
  rfl

/-- The coordinate-update array at entry (e, k), from the message array's row e. -/
theorem v70_apply (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x11 : FVec Ideal S128x128 .f32) (x12 : FVec Ideal S128 .f32) (x13 : FVec Ideal S128x1 .f32)
    (x14 : IVec S2x800000 32) (e : Fin 800000) (k : Fin 3) :
    val_main_v70 (F := Ideal) x0 x1 x2 x3 x4 x5 x6 x11 x12 x13 x14 (ix2 e k)
      = coordDiff (coordW (row (val_main_v44 (F := Ideal) x0 x1 x2 x3 x4 x5 x6 x14) e) (mat x11) (vec x12) (mat x13))
          (row (val_main_v10 (F := Ideal) x1 x14) e) (row (val_main_v17 (F := Ideal) x1 x14) e)
          (Ideal.ofBits .f32 0x322BCC77#32) k := by
  rw [val_main_v70_apply, val_main_v66_apply, val_main_v65_apply, val_main_v69_apply, val_main_v68_apply, val_main_v67_apply,
    val_main_cst_7_apply, val_main_v18_apply, coord_idx65, coord_idx69, coord_v64, coord_v19]
  rfl

end Cert.ReferenceIdeal.RefEdge

end
-- ==== Proof.RefNode.lean ====
/-
  The reference's node stage read at one entry, in the terms of Spec: the concatenated row (h, summed messages) of width
  256 times the whole first node matrix, regrouped over the matrix's two halves (`Egnn.lin_cat256`), the activation, the
  second dense layer and the residual.  The summed-message array (a scatter-add) stays unopened.
-/
import proofs.«153590_j30829275251278_1_alg».proof.Proof.Gen.ReferenceIdeal.Read
import proofs.«153590_j30829275251278_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefNode

open Idealize.ShloMosaic Idealize.ShloMosaic.ValueIdx Cert.ReferenceIdeal Cert.ReferenceIdeal.Read Cert.Egnn

/-- The float word of 1.0 denotes 1. -/
private theorem one_word : Ideal.ofBits .f32 0x3F800000#32 = 1 := IdealRules.sign_bit.ideal_onePat .f32

/-- The reference's expansion of the activation, x times 1 / (1 + exp (-x)), is `silu x`. -/
private theorem silu_expand (x : EReal) :
    x * Ideal.div (Ideal.ofBits .f32 0x3F800000#32) (Ideal.ofBits .f32 0x3F800000#32 + Ideal.exp (-x)) = silu x := by
  rw [one_word]; rfl

/-- A column below 128 of two 128-wide arrays joined along axis 1 reads the first array. -/
private theorem cat_left (x y : FVec Ideal S50000x128 .f32) (n : Fin 50000) (k : Fin 128) :
    concatenate S50000x256 1 [⟨S50000x128, x⟩, ⟨S50000x128, y⟩] Cert.ReferenceIdeal.Gen.concatenates_S50000x128_S50000x128_S50000x256_d1
        (ix2 n (⟨k.val, by have := k.isLt; omega⟩ : Fin 256)) = x (ix2 n k) :=
  concatenate_pair_apply_left 1 x y Cert.ReferenceIdeal.Gen.concatenates_S50000x128_S50000x128_S50000x256_d1 _ rfl _ (fun b => by
    match b with
    | ⟨0, _⟩ => rfl
    | ⟨1, _⟩ => rfl)

/-- A column from 128 on reads the second array, 128 columns to the left. -/
private theorem cat_right (x y : FVec Ideal S50000x128 .f32) (n : Fin 50000) (k : Fin 128) :
    concatenate S50000x256 1 [⟨S50000x128, x⟩, ⟨S50000x128, y⟩] Cert.ReferenceIdeal.Gen.concatenates_S50000x128_S50000x128_S50000x256_d1
        (ix2 n (⟨128 + k.val, by have := k.isLt; omega⟩ : Fin 256)) = y (ix2 n k) :=
  concatenate_pair_apply_right 1 x y Cert.ReferenceIdeal.Gen.concatenates_S50000x128_S50000x128_S50000x256_d1 _ rfl rfl _
    (fun b hb => by
      match b with
      | ⟨0, _⟩ => rfl
      | ⟨1, _⟩ => exact absurd rfl hb)
    (by show k.val + 128 = 128 + k.val; omega)

/-- The first node layer before its activation at entry (n, k): the concatenated row of width 256 times the first node
    matrix is the two partial products over the matrix's halves, plus the bias. -/
theorem v52_apply (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x7 : FVec Ideal S256x128 .f32) (x8 : FVec Ideal S128 .f32) (x14 : IVec S2x800000 32) (n : Fin 50000) (k : Fin 128) :
    val_main_v52 (F := Ideal) x0 x1 x2 x3 x4 x5 x6 x7 x8 x14 (ix2 n k)
      = (lin (row x0 n) (band 128 0 (by omega) (mat x7)) k
          + lin (row (val_main_v47 (F := Ideal) x0 x1 x2 x3 x4 x5 x6 x14) n) (band 128 128 (by omega) (mat x7)) k)
        + vec x8 k := by
  have el : ∀ q : Fin 256, lidx_main_v49 (ix2 n k) q = ix2 n q := fun q =>
    funext fun a => Fin.ext (by match a with | ⟨0, _⟩ => rfl | ⟨1, _⟩ => rfl)
  have er : ∀ q : Fin 256, ridx_main_v49 (ix2 n k) q = ix2 q k := fun q =>
    funext fun a => Fin.ext (by match a with | ⟨0, _⟩ => rfl | ⟨1, _⟩ => rfl)
  have eb : idx_main_v50 (idx_main_v51 (ix2 n k)) = ix1 k :=
    funext fun a => Fin.ext (by match a with | ⟨0, _⟩ => rfl)
  rw [val_main_v52_apply, val_main_v49_apply, val_main_v51_apply, val_main_v50_apply, eb, Ideal.addf_def]
  refine congrArg₂ (· + ·) ?_ rfl
  refine (Finset.sum_congr rfl fun q _ => by rw [el q, er q]).trans ?_
  exact lin_cat256 (row x0 n) (row (val_main_v47 (F := Ideal) x0 x1 x2 x3 x4 x5 x6 x14) n) (mat x7)
    (fun q => val_main_v48 (F := Ideal) x0 x1 x2 x3 x4 x5 x6 x14 (ix2 n q))
    (fun q => cat_left x0 (val_main_v47 (F := Ideal) x0 x1 x2 x3 x4 x5 x6 x14) n q)
    (fun q => cat_right x0 (val_main_v47 (F := Ideal) x0 x1 x2 x3 x4 x5 x6 x14) n q) k

/-- The activated first node layer at entry (n, k). -/
theorem v53_apply (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x7 : FVec Ideal S256x128 .f32) (x8 : FVec Ideal S128 .f32) (x14 : IVec S2x800000 32) (n : Fin 50000) (k : Fin 128) :
    val_main_v53 (F := Ideal) x0 x1 x2 x3 x4 x5 x6 x7 x8 x14 (ix2 n k)
      = silu ((lin (row x0 n) (band 128 0 (by omega) (mat x7)) k
          + lin (row (val_main_v47 (F := Ideal) x0 x1 x2 x3 x4 x5 x6 x14) n) (band 128 128 (by omega) (mat x7)) k)
        + vec x8 k) := by
  rw [val_main_v53_apply, val_main_call3_v5_apply, val_main_call3_v4_apply, val_main_call3_cst_0_apply,
    val_main_call3_v3_apply, val_main_call3_v2_apply, val_main_call3_cst_apply, val_main_call3_v1_apply,
    val_main_call3_v0_apply, v52_apply]
  exact silu_expand _

/-- The new feature array at entry (n, j): the node update of node n's own row and its summed-message row. -/
theorem v58_apply (x0 : FVec Ideal S50000x128 .f32) (x1 : FVec Ideal S50000x3 .f32) (x2 : FVec Ideal S800000x6 .f32)
    (x3 : FVec Ideal S263x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 : FVec Ideal S128 .f32)
    (x14 : IVec S2x800000 32) (n : Fin 50000) (j : Fin 128) :
    val_main_v58 (F := Ideal) x0 x1 x2 x3 x4 x5 x6 x7 x8 x9 x10 x14 (ix2 n j)
      = node (row x0 n) (row (val_main_v47 (F := Ideal) x0 x1 x2 x3 x4 x5 x6 x14) n)
          (band 128 0 (by omega) (mat x7)) (band 128 128 (by omega) (mat x7)) (vec x8) (mat x9) (vec x10) j := by
  have el : ∀ q : Fin 128, lidx_main_v54 (ix2 n j) q = ix2 n q := fun q =>
    funext fun a => Fin.ext (by match a with | ⟨0, _⟩ => rfl | ⟨1, _⟩ => rfl)
  have er : ∀ q : Fin 128, ridx_main_v54 (ix2 n j) q = ix2 q j := fun q =>
    funext fun a => Fin.ext (by match a with | ⟨0, _⟩ => rfl | ⟨1, _⟩ => rfl)
  have eb : idx_main_v55 (idx_main_v56 (ix2 n j)) = ix1 j :=
    funext fun a => Fin.ext (by match a with | ⟨0, _⟩ => rfl)
  rw [val_main_v58_apply, val_main_v57_apply, val_main_v54_apply, val_main_v56_apply, val_main_v55_apply, eb,
    Ideal.addf_def, Ideal.addf_def]
  refine congrArg₂ (· + ·) rfl (congrArg₂ (· + ·) ?_ rfl)
  exact Finset.sum_congr rfl fun q _ => by rw [el q, er q, v53_apply]; rfl

end Cert.ReferenceIdeal.RefNode

end
-- ==== Proof.Glue.lean ====
/-
  Small facts that join the kernel program's host values to the specification's vocabulary.  A change of float format
  is the identity on the extended reals, so a truncated array is the array.  A unit-stride slice of K rows of a matrix
  starting at row o, read as a matrix, is the band of those rows (`Egnn.band`); a slice of one row, read as a row, is
  that row of the matrix.
-/
import proofs.«153590_j30829275251278_1_alg».proof.Proof.Spec
import Idealize.ShloMosaic.PureOps.Ideal
import Idealize.ShloMosaic.Lib.ValueIdx
import Idealize.ShloMosaic.Lib.Pipeline.Value

noncomputable section

namespace Cert.Egnn

open Idealize.ShloMosaic Idealize.ShloMosaic.ValueIdx

/-- A change to a narrower float format is the identity on an array of extended reals. -/
theorem truncf_id {S : Shape} {φ : FTy} (ψ : FTy) (x : FVec Ideal S φ) (h : ψ.bits < φ.bits) : truncf ψ x h = x := rfl

/-- The slice of `K` rows from row `o` of a `K'`-row matrix, read as a matrix, is the band of those rows. -/
theorem mat_slice {K' K n o : ℕ} (x : (⟨2, ![K', n]⟩ : Shape).Idx → EReal)
    (h : (⟨2, ![K', n]⟩ : Shape).Slices ![o, 0] (⟨2, ![K, n]⟩ : Shape)) (hle : o + K ≤ K') :
    mat (extractStridedSlice (⟨2, ![K, n]⟩ : Shape) ![o, 0] x h) = band K o hle (mat x) := by
  funext k j
  unfold mat band
  refine extractStridedSlice_apply ![o, 0] x h (ix2 k j) (ix2 ⟨o + k.val, by have := k.isLt; omega⟩ j) (fun a => ?_)
  match a with
  | ⟨0, _⟩ => rfl
  | ⟨1, _⟩ => show j.val = 0 + j.val; omega

/-- The slice of the one row `o` of a matrix, read as a row, is that row. -/
theorem row_slice {K' n o : ℕ} (x : (⟨2, ![K', n]⟩ : Shape).Idx → EReal)
    (h : (⟨2, ![K', n]⟩ : Shape).Slices ![o, 0] (⟨2, ![1, n]⟩ : Shape)) (hlt : o < K') :
    row (extractStridedSlice (⟨2, ![1, n]⟩ : Shape) ![o, 0] x h) 0 = fun q => mat x ⟨o, hlt⟩ q := by
  funext q
  unfold mat row
  refine extractStridedSlice_apply ![o, 0] x h (ix2 0 q) (ix2 ⟨o, hlt⟩ q) (fun a => ?_)
  match a with
  | ⟨0, _⟩ => rfl
  | ⟨1, _⟩ => show q.val = 0 + q.val; omega

end Cert.Egnn

end
-- ==== Proof.HostBridge.lean ====
/-
  The kernel's host program and the reference compute the same integer index columns from the edge index array and
  gather the same rows with them: the two programs print the same operations (a slice of one row, a reshape, the
  wrap of a negative index by the row count, the broadcast to a column), so stage by stage the reference's values are
  the kernel program's host terms.  A change of float format is the identity on the extended reals, so gathering from
  the narrowed feature array is gathering from the array.  The scatter-adds of both programs start from the same zero
  array and use the same raw column of target indices.
-/
import proofs.«153590_j30829275251278_1_alg».proof.Proof.Gen.ReferenceIdeal.Read
import proofs.«153590_j30829275251278_1_alg».proof.Proof.HostTerms
import proofs.«153590_j30829275251278_1_alg».proof.Proof.Glue
import Idealize.ShloMosaic.PureOps.Ideal

noncomputable section

namespace Cert.HostBridge

open Idealize.ShloMosaic
open Cert.KernelIdeal Cert.KernelIdeal.Gen Cert.KernelIdeal.HostTerms
open Cert.ReferenceIdeal.Read (val_main_v9 val_main_v16 val_main_v25 val_main_v32 val_main_v46 val_main_v72 val_main_v10 val_main_v17 val_main_v26 val_main_v33 val_main_v45 val_main_v71)

variable (x14 : IVec S2x800000 32)

/-! ## The index columns -/

theorem idx_feat_src : val_main_v25 (F := Ideal) x14 = wrapCol (idxRow0 x14) := by
  unfold val_main_v25 Cert.ReferenceIdeal.Read.val_main_v24 Cert.ReferenceIdeal.Read.val_main_v21 Cert.ReferenceIdeal.Read.val_main_v23 Cert.ReferenceIdeal.Read.val_main_v20 Cert.ReferenceIdeal.Read.val_main_v22 Cert.ReferenceIdeal.Read.val_main_c_3 Cert.ReferenceIdeal.Read.val_main_c_4 Cert.ReferenceIdeal.Read.val_main_v1 Cert.ReferenceIdeal.Read.val_main_v0 wrapCol idxRow0
  rfl
theorem idx_feat_tgt : val_main_v32 (F := Ideal) x14 = wrapCol (idxRow1 x14) := by
  unfold val_main_v32 Cert.ReferenceIdeal.Read.val_main_v31 Cert.ReferenceIdeal.Read.val_main_v28 Cert.ReferenceIdeal.Read.val_main_v30 Cert.ReferenceIdeal.Read.val_main_v27 Cert.ReferenceIdeal.Read.val_main_v29 Cert.ReferenceIdeal.Read.val_main_c_5 Cert.ReferenceIdeal.Read.val_main_c_6 Cert.ReferenceIdeal.Read.val_main_v3 Cert.ReferenceIdeal.Read.val_main_v2 wrapCol idxRow1
  rfl
theorem idx_pos_src : val_main_v9 (F := Ideal) x14 = wrapCol (idxRow0 x14) := by
  unfold val_main_v9 Cert.ReferenceIdeal.Read.val_main_v8 Cert.ReferenceIdeal.Read.val_main_v5 Cert.ReferenceIdeal.Read.val_main_v7 Cert.ReferenceIdeal.Read.val_main_v4 Cert.ReferenceIdeal.Read.val_main_v6 Cert.ReferenceIdeal.Read.val_main_c Cert.ReferenceIdeal.Read.val_main_c_0 Cert.ReferenceIdeal.Read.val_main_v1 Cert.ReferenceIdeal.Read.val_main_v0 wrapCol idxRow0
  rfl
theorem idx_pos_tgt : val_main_v16 (F := Ideal) x14 = wrapCol (idxRow1 x14) := by
  unfold val_main_v16 Cert.ReferenceIdeal.Read.val_main_v15 Cert.ReferenceIdeal.Read.val_main_v12 Cert.ReferenceIdeal.Read.val_main_v14 Cert.ReferenceIdeal.Read.val_main_v11 Cert.ReferenceIdeal.Read.val_main_v13 Cert.ReferenceIdeal.Read.val_main_c_1 Cert.ReferenceIdeal.Read.val_main_c_2 Cert.ReferenceIdeal.Read.val_main_v3 Cert.ReferenceIdeal.Read.val_main_v2 wrapCol idxRow1
  rfl
theorem idx_scatter_feat : val_main_v46 (F := Ideal) x14 = rawCol (idxRow1 x14) := by
  unfold val_main_v46 Cert.ReferenceIdeal.Read.val_main_v3 Cert.ReferenceIdeal.Read.val_main_v2 rawCol idxRow1
  rfl
theorem idx_scatter_pos : val_main_v72 (F := Ideal) x14 = rawCol (idxRow1 x14) := by
  unfold val_main_v72 Cert.ReferenceIdeal.Read.val_main_v3 Cert.ReferenceIdeal.Read.val_main_v2 rawCol idxRow1
  rfl

/-! ## The gathered rows -/

theorem gather_feat_src (x0 : FVec Ideal S50000x128 .f32) : val_main_v26 (F := Ideal) x0 x14
    = Host.gather gather_S50000x128_S800000x1_S800000x128_1_0_n_n_0_1_1128 (truncf .bf16 x0 bitsLt_bf16_f32) (wrapCol (idxRow0 x14)) := by
  unfold val_main_v26
  rw [idx_feat_src]
  rfl
theorem gather_feat_tgt (x0 : FVec Ideal S50000x128 .f32) : val_main_v33 (F := Ideal) x0 x14
    = Host.gather gather_S50000x128_S800000x1_S800000x128_1_0_n_n_0_1_1128 (truncf .bf16 x0 bitsLt_bf16_f32) (wrapCol (idxRow1 x14)) := by
  unfold val_main_v33
  rw [idx_feat_tgt]
  rfl
theorem gather_pos_src (x1 : FVec Ideal S50000x3 .f32) : val_main_v10 (F := Ideal) x1 x14
    = Host.gather gather_S50000x3_S800000x1_S800000x3_1_0_n_n_0_1_13 x1 (wrapCol (idxRow0 x14)) := by
  unfold val_main_v10
  rw [idx_pos_src]
  rfl
theorem gather_pos_tgt (x1 : FVec Ideal S50000x3 .f32) : val_main_v17 (F := Ideal) x1 x14
    = Host.gather gather_S50000x3_S800000x1_S800000x3_1_0_n_n_0_1_13 x1 (wrapCol (idxRow1 x14)) := by
  unfold val_main_v17
  rw [idx_pos_tgt]
  rfl

/-! ## The scatter-adds -/

theorem scatter_feat (u : FVec Ideal S800000x128 .f32) :
    Host.scatterAdd Cert.ReferenceIdeal.scatter_S50000x128_S800000x1_S800000x128_1_0_0_1 (val_main_v45 (F := Ideal)) (val_main_v46 (F := Ideal) x14) u
      = Host.scatterAdd scatter_S50000x128_S800000x1_S800000x128_1_0_0_1
          (broadcastInDim S50000x128 ![] bcast_S_S50000x128 (constant (F := Ideal) S_ .f32 0x00000000#32)) (rawCol (idxRow1 x14)) u := by
  rw [idx_scatter_feat]
  unfold val_main_v45 Cert.ReferenceIdeal.Read.val_main_cst
  rfl
theorem scatter_pos (u : FVec Ideal S800000x3 .f32) :
    Host.scatterAdd Cert.ReferenceIdeal.scatter_S50000x3_S800000x1_S800000x3_1_0_0_1 (val_main_v71 (F := Ideal)) (val_main_v72 (F := Ideal) x14) u
      = Host.scatterAdd scatter_S50000x3_S800000x1_S800000x3_1_0_0_1
          (broadcastInDim S50000x3 ![] bcast_S_S50000x3 (constant (F := Ideal) S_ .f32 0x00000000#32)) (rawCol (idxRow1 x14)) u := by
  rw [idx_scatter_pos]
  unfold val_main_v71 Cert.ReferenceIdeal.Read.val_main_cst_8
  rfl

end Cert.HostBridge

end
-- ==== Proof.Bridge.lean ====
/-
  The kernel program's two results are the reference's, as extended reals, entry by entry.

  Messages.  Edge e's message row in the kernel program is `Egnn.msg` of row e of the five edge arrays its host
  operations gather and of the weight bands they slice; the reference's is `Egnn.msg` of the reference's own gathered
  rows and of the bands of the whole first weight matrix.  Both programs gather with the same index columns, a change
  of float format is the identity, and a slice of rows is the band of those rows, so the two rows are equal; the
  coordinate updates are equal for the same reason.
  Nodes.  Both programs scatter-add the message rows (now equal) at the same target indices into a zero array, and
  feed node n's own row and its summed-message row through the same two layers, the first weight matrix split into
  its two halves on the kernel's side.  The new positions are the old ones plus the scatter-added coordinate updates.
-/
import proofs.«153590_j30829275251278_1_alg».proof.Proof.KernelRun
import proofs.«153590_j30829275251278_1_alg».proof.Proof.HostValues
import proofs.«153590_j30829275251278_1_alg».proof.Proof.EdgeArrays
import proofs.«153590_j30829275251278_1_alg».proof.Proof.NodeArray
import proofs.«153590_j30829275251278_1_alg».proof.Proof.RefEdge
import proofs.«153590_j30829275251278_1_alg».proof.Proof.RefEdge2
import proofs.«153590_j30829275251278_1_alg».proof.Proof.RefNode
import proofs.«153590_j30829275251278_1_alg».proof.Proof.HostBridge
import proofs.«153590_j30829275251278_1_alg».proof.Proof.Glue

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.GenP Cert.KernelIdeal.HostTerms Cert.KernelIdeal.HostValues
open Cert.KernelIdeal.EdgeArrays Cert.KernelIdeal.NodeArray Cert.Egnn
open Cert.ReferenceIdeal.Read (val_main_v44 val_main_v70 val_main_v58 val_main_v74 val_main_v47 val_main_v73 val_main_v10 val_main_v17
  val_main_v26 val_main_v33)

variable (m : (ℓ : Loc nD τ sig) → Buf (Elt Ideal) ℓ) (ρ : Dev nD → PrngReg)

/-! ## The edge region's entry rows are the reference's gathered rows -/

theorem feat_src (c : Dev nD) : (V1 m ρ c main_v11 : FVec Ideal S800000x128 .bf16) = val_main_v26 (F := Ideal) (a0 m c) (a14 m c) :=
  (V1_v11 m ρ c).trans (HostBridge.gather_feat_src (a14 m c) (a0 m c)).symm
theorem feat_tgt (c : Dev nD) : (V1 m ρ c main_v18 : FVec Ideal S800000x128 .bf16) = val_main_v33 (F := Ideal) (a0 m c) (a14 m c) :=
  (V1_v18 m ρ c).trans (HostBridge.gather_feat_tgt (a14 m c) (a0 m c)).symm
theorem pos_src (c : Dev nD) : (V1 m ρ c main_v25 : FVec Ideal S800000x3 .f32) = val_main_v10 (F := Ideal) (a1 m c) (a14 m c) :=
  (V1_v25 m ρ c).trans (HostBridge.gather_pos_src (a14 m c) (a1 m c)).symm
theorem pos_tgt (c : Dev nD) : (V1 m ρ c main_v32 : FVec Ideal S800000x3 .f32) = val_main_v17 (F := Ideal) (a1 m c) (a14 m c) :=
  (V1_v32 m ρ c).trans (HostBridge.gather_pos_tgt (a14 m c) (a1 m c)).symm

/-! ## The weight blocks are the bands of the whole matrices -/

theorem w_a (c : Dev nD) : mat (V1 m ρ c main_v34 : FVec Ideal S128x128 .bf16) = band 128 0 (by omega) (mat (a3 m c)) := by
  rw [V1_v34 m ρ c, truncf_id]; exact mat_slice _ _ _
theorem w_b (c : Dev nD) : mat (V1 m ρ c main_v36 : FVec Ideal S128x128 .bf16) = band 128 128 (by omega) (mat (a3 m c)) := by
  rw [V1_v36 m ρ c, truncf_id]; exact mat_slice _ _ _
theorem w_c (c : Dev nD) : mat (V1 m ρ c main_v38 : FVec Ideal S6x128 .bf16) = band 6 256 (by omega) (mat (a3 m c)) := by
  rw [V1_v38 m ρ c, truncf_id]; exact mat_slice _ _ _
theorem w_d (c : Dev nD) : row (V1 m ρ c main_v39 : FVec Ideal S1x128 .f32) 0 = fun q => mat (a3 m c) ⟨262, by omega⟩ q := by
  rw [V1_v39 m ρ c]; exact row_slice _ _ _
theorem w_n1 (c : Dev nD) : mat (V3 m ρ c main_v51 : FVec Ideal S128x128 .f32) = band 128 0 (by omega) (mat (a7 m c)) := by
  rw [V3_v51 m ρ c]; exact mat_slice _ _ _
theorem w_n2 (c : Dev nD) : mat (V3 m ρ c main_v52 : FVec Ideal S128x128 .f32) = band 128 128 (by omega) (mat (a7 m c)) := by
  rw [V3_v52 m ρ c]; exact mat_slice _ _ _

/-! ## Edge by edge -/

/-- Edge e's message row is the same in both programs. -/
theorem msg_eq (c : Dev nD) (e : Fin 800000) :
    row (val_main_v44 (F := Ideal) (a0 m c) (a1 m c) (a2 m c) (a3 m c) (a4 m c) (a5 m c) (a6 m c) (a14 m c)) e = msgRow (V1 m ρ) c e := by
  funext j
  show val_main_v44 (F := Ideal) (a0 m c) (a1 m c) (a2 m c) (a3 m c) (a4 m c) (a5 m c) (a6 m c) (a14 m c) (ix2 e j) = _
  rw [Cert.ReferenceIdeal.RefEdge.v44_apply]
  unfold msgRow
  rw [feat_src m ρ c, feat_tgt m ρ c, pos_src m ρ c, pos_tgt m ρ c, w_a m ρ c, w_b m ρ c, w_c m ρ c, w_d m ρ c,
    V1_arg2 m ρ c, V1_arg4 m ρ c, V1_v40 m ρ c, V1_arg6 m ρ c, truncf_id]

/-- Edge e's coordinate update is the same in both programs. -/
theorem cd_eq (c : Dev nD) (e : Fin 800000) :
    row (val_main_v70 (F := Ideal) (a0 m c) (a1 m c) (a2 m c) (a3 m c) (a4 m c) (a5 m c) (a6 m c) (a11 m c) (a12 m c) (a13 m c) (a14 m c)) e
      = cdRow (V1 m ρ) c e := by
  funext k
  show val_main_v70 (F := Ideal) (a0 m c) (a1 m c) (a2 m c) (a3 m c) (a4 m c) (a5 m c) (a6 m c) (a11 m c) (a12 m c) (a13 m c) (a14 m c) (ix2 e k) = _
  rw [Cert.ReferenceIdeal.RefEdge.v70_apply, msg_eq m ρ c e]
  unfold cdRow
  rw [pos_src m ρ c, pos_tgt m ρ c, V1_v41 m ρ c, V1_arg12 m ρ c, V1_v42 m ρ c, truncf_id, truncf_id]

/-! ## The edge region's output arrays are the reference's edge stages -/

/-- Entry (e, k) of a row is the array's entry. -/
theorem row_apply {R n : ℕ} (A : (⟨2, ![R, n]⟩ : Shape).Idx → EReal) (e : Fin R) (k : Fin n) : row A e k = A (ix2 e k) := rfl

theorem msgs_eq (c : Dev nD) : (W2 m ρ c (Proc.devRef .tc main_v43_0) : FVec Ideal S800000x128 .f32)
    = val_main_v44 (F := Ideal) (a0 m c) (a1 m c) (a2 m c) (a3 m c) (a4 m c) (a5 m c) (a6 m c) (a14 m c) :=
  calc (W2 m ρ c (Proc.devRef .tc main_v43_0) : FVec Ideal S800000x128 .f32)
    _ = ((dat0 (F := Ideal) (V1 m ρ) c).arrAt 15 cfg0.N : FVec Ideal S800000x128 .f32) := W2_arr m ρ c 15
    _ = (fun i : S800000x128.Idx => msgRow (V1 m ρ) c (i 0) (i 1)) := arrAt15 (V1 m ρ) c
    _ = val_main_v44 (F := Ideal) (a0 m c) (a1 m c) (a2 m c) (a3 m c) (a4 m c) (a5 m c) (a6 m c) (a14 m c) := by
        funext i
        conv_rhs => rw [eq_ix2 i]
        exact ((congrFun (msg_eq m ρ c (i 0)) (i 1)).symm.trans (row_apply _ (i 0) (i 1)))

theorem cds_eq (c : Dev nD) : (W2 m ρ c (Proc.devRef .tc main_v43_1) : FVec Ideal S800000x3 .f32)
    = val_main_v70 (F := Ideal) (a0 m c) (a1 m c) (a2 m c) (a3 m c) (a4 m c) (a5 m c) (a6 m c) (a11 m c) (a12 m c) (a13 m c) (a14 m c) :=
  calc (W2 m ρ c (Proc.devRef .tc main_v43_1) : FVec Ideal S800000x3 .f32)
    _ = ((dat0 (F := Ideal) (V1 m ρ) c).arrAt 16 cfg0.N : FVec Ideal S800000x3 .f32) := W2_arr m ρ c 16
    _ = (fun i : S800000x3.Idx => cdRow (V1 m ρ) c (i 0) (i 1)) := arrAt16 (V1 m ρ) c
    _ = val_main_v70 (F := Ideal) (a0 m c) (a1 m c) (a2 m c) (a3 m c) (a4 m c) (a5 m c) (a6 m c) (a11 m c) (a12 m c) (a13 m c) (a14 m c) := by
        funext i
        conv_rhs => rw [eq_ix2 i]
        exact ((congrFun (cd_eq m ρ c (i 0)) (i 1)).symm.trans (row_apply _ (i 0) (i 1)))

/-! ## The summed messages, and the two results -/

theorem summed_eq (c : Dev nD) : (V3 m ρ c main_v46 : FVec Ideal S50000x128 .f32)
    = val_main_v47 (F := Ideal) (a0 m c) (a1 m c) (a2 m c) (a3 m c) (a4 m c) (a5 m c) (a6 m c) (a14 m c) := by
  rw [V3_v46 m ρ c, msgs_eq m ρ c]
  exact (HostBridge.scatter_feat (a14 m c) _).symm

/-- Node n's updated feature row is the same in both programs. -/
theorem node_eq (c : Dev nD) (n : Fin 50000) :
    row (val_main_v58 (F := Ideal) (a0 m c) (a1 m c) (a2 m c) (a3 m c) (a4 m c) (a5 m c) (a6 m c) (a7 m c) (a8 m c) (a9 m c) (a10 m c) (a14 m c)) n
      = nodeRow (V3 m ρ) c n := by
  funext j
  show val_main_v58 (F := Ideal) (a0 m c) (a1 m c) (a2 m c) (a3 m c) (a4 m c) (a5 m c) (a6 m c) (a7 m c) (a8 m c) (a9 m c) (a10 m c) (a14 m c) (ix2 n j) = _
  rw [Cert.ReferenceIdeal.RefNode.v58_apply]
  unfold nodeRow
  rw [summed_eq m ρ c, w_n1 m ρ c, w_n2 m ρ c, V3_arg0 m ρ c, V3_arg8 m ρ c, V3_arg9 m ρ c, V3_arg10 m ρ c]

/-- The new feature array. -/
theorem v58_eq (c : Dev nD) :
    val_main_v58 (F := Ideal) (a0 m c) (a1 m c) (a2 m c) (a3 m c) (a4 m c) (a5 m c) (a6 m c) (a7 m c) (a8 m c) (a9 m c) (a10 m c) (a14 m c)
      = (W4 m ρ c (Proc.devRef .tc main_v53) : FVec Ideal S50000x128 .f32) :=
  Eq.symm <|
  calc (W4 m ρ c (Proc.devRef .tc main_v53) : FVec Ideal S50000x128 .f32)
    _ = ((dat1 (F := Ideal) (V3 m ρ) c).arrAt 7 cfg1.N : FVec Ideal S50000x128 .f32) := W4_arr m ρ c 7
    _ = (fun i : S50000x128.Idx => nodeRow (V3 m ρ) c (i 0) (i 1)) := arrAt7 (V3 m ρ) c
    _ = val_main_v58 (F := Ideal) (a0 m c) (a1 m c) (a2 m c) (a3 m c) (a4 m c) (a5 m c) (a6 m c) (a7 m c) (a8 m c) (a9 m c) (a10 m c) (a14 m c) := by
        funext i
        conv_rhs => rw [eq_ix2 i]
        exact ((congrFun (node_eq m ρ c (i 0)) (i 1)).symm.trans (row_apply _ (i 0) (i 1)))

/-- The new position array. -/
theorem v74_eq (c : Dev nD) :
    val_main_v74 (F := Ideal) (a0 m c) (a1 m c) (a2 m c) (a3 m c) (a4 m c) (a5 m c) (a6 m c) (a11 m c) (a12 m c) (a13 m c) (a14 m c)
      = (W4 m ρ c (Proc.devRef .tc main_v50) : FVec Ideal S50000x3 .f32) := by
  rw [W4_v50 m ρ c, cds_eq m ρ c]
  exact congrArg (addf (a1 m c)) (HostBridge.scatter_pos (a14 m c) _)

end Cert.Bridge

end
-- ==== Proof.lean ====
/-
  The certificate of the message-passing layer: the kernel program (two pallas regions, an edge stage over 800000 edges
  in blocks of 1600 and a node stage over 50000 nodes in blocks of 1000, with gathers and scatter-adds between them on
  the host) against the plain reference, over the extended reals.

  Frames: both printed kernel programs run, terminate and leave their arguments as launched; the reference is a straight
  line of host operations, and its generated run reads back each result as the last stage's value of the arguments.  The idealization rewrote no operation.  Values: the kernel
  program's run ends with its two results at the contents the last region boundary names (`run_results`), the
  reference's at its last stages, and these are one function of the arguments (`Bridge.v58_eq`, `Bridge.v74_eq`):
  the first dense layer of the edge stage is the same 263-term sum grouped into its four bands, the first dense layer of
  the node stage the same 256-term sum grouped into two halves, the activation x · logistic x is the reference's
  x · (1 / (1 + exp (−x))), gathers and scatter-adds use the same index columns, and a change of float format is the
  identity.  None of this needs the inputs to be finite.
-/
import proofs.«153590_j30829275251278_1_alg».proof.Defs
import proofs.«153590_j30829275251278_1_alg».proof.Proof.Gen.Kernel
import proofs.«153590_j30829275251278_1_alg».proof.Proof.Gen.KernelIdeal
import proofs.«153590_j30829275251278_1_alg».proof.Proof.Gen.ReferenceIdeal
import proofs.«153590_j30829275251278_1_alg».proof.Proof.Gen.Pre_finite_inputs
import proofs.«153590_j30829275251278_1_alg».proof.Proof.Patched.Kernel.Frame
import proofs.«153590_j30829275251278_1_alg».proof.Proof.Patched.KernelIdeal.Frame
import proofs.«153590_j30829275251278_1_alg».proof.Proof.KernelRun
import proofs.«153590_j30829275251278_1_alg».proof.Proof.Gen.ReferenceIdeal.Run
import proofs.«153590_j30829275251278_1_alg».proof.Proof.Gen.ReferenceIdeal.Read
import proofs.«153590_j30829275251278_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs run from memories that agree on the arguments and end with the same two results. -/
theorem algebraic : Cert.algebraic_KernelIdeal_ReferenceIdeal := by
  intro m ρ m' ρ' _ hagree
  refine ⟨fun c => Cert.KernelIdeal.GenP.W4 m ρ c (Proc.devRef .tc Cert.KernelIdeal.main_v53),
    fun c => Cert.KernelIdeal.GenP.W4 m ρ c (Proc.devRef .tc Cert.KernelIdeal.main_v50),
    Cert.KernelIdeal.GenP.run_results (F := Ideal) m ρ, ?_⟩
  refine (θ_run Cert.ReferenceIdeal.defs _ _).mono (fun r h c => ?_) (Cert.ReferenceIdeal.Value.run (F := Ideal) m' ρ')
  obtain ⟨h58, h74, hkept⟩ := h c
  obtain ⟨e0, e1, e2, e3, e4, e5, e6, e7, e8, e9, e10, e11, e12, e13, e14⟩ := hagree c
  refine ⟨h58.trans ?_, h74.trans ?_, hkept⟩
  · rw [Cert.ReferenceIdeal.Read.val_main_v58_eq, e0, e1, e2, e3, e4, e5, e6, e7, e8, e9, e10, e14]
    exact Cert.Bridge.v58_eq m ρ c
  · rw [Cert.ReferenceIdeal.Read.val_main_v74_eq, e0, e1, e2, e3, e4, e5, e6, e11, e12, e13, e14]
    exact Cert.Bridge.v74_eq m ρ c

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
